-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024 .f32) (main_arg5 : FVec F S1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x1024x1024 : Shape := ⟨3, ![1, 1024, 1024]⟩
abbrev S1024x1 : Shape := ⟨2, ![1024, 1]⟩

abbrev nBuf : Space → Nat
  | .hbm => 21
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .bf16⟩
  | .hbm, ⟨20, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 2, 2], ![false, false, false]⟩

def k1_cond2 (i : grid1.Coords) : BitVec 1 :=
  let arg2 : BitVec 32 := BitVec.ofNat 32 (i 2).val
  let c1_i32 : BitVec 32 := 1#32
  let v40 : BitVec 1 := Scalar.cmpi .eq arg2 c1_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x1024.size a
  hwx1_1 : ∀ i : grid1.Coords, EltTy.bits .bf16 = 32 ∨ (Rect.block (s := S4x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v8) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Bits.R0.lean ====
/-
  The projection region (the first of the program's two kernel regions): at each of its 16 grid points the body loads
  a block of 512 rows of x, the three weights and the three bias rows whole, and stores one block of 512 rows into
  each of q, k and v. Nothing is carried between points. This module states what each output's staging buffer holds
  after the body as a function of the input blocks, runs the body once on arbitrary whole staging memrefs, and
  packages the result as the pipeline's proof data and its obligation at every grid point, for any contents `V`
  of the buffers at the region's entry.
-/
import proofs.«402078_j38448547233995_3_alg».proof.Proof.Gen.Kernel.Launch
import proofs.«402078_j38448547233995_3_alg».proof.Proof.Gen.Kernel.Skeleton
import proofs.«402078_j38448547233995_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there or
    not (a weight or a bias row is fetched once: its block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every load and store takes a whole buffer -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-! ## What the body leaves in each output's staging buffer -/

/-- The q block: (x·Wq + bq)·(1/32) of the loaded blocks. -/
def out0_7 (x0 : Vec F S512x1024 .f32) (x1 : Vec F S1024x1024 .bf16) (x4 : Vec F S1x1024 .f32) : Vec F S512x1024 .bf16 :=
  View.canon [⟨rX, k0_pay2 (View.ld x0 rX) (View.ld x1 rW) (View.ld x4 rB)⟩]
/-- The k block: x·Wk + bk. -/
def out0_8 (x0 : Vec F S512x1024 .f32) (x2 : Vec F S1024x1024 .bf16) (x5 : Vec F S1x1024 .f32) : Vec F S512x1024 .bf16 :=
  View.canon [⟨rX, k0_pay3 (View.ld x0 rX) (View.ld x2 rW) (View.ld x5 rB)⟩]
/-- The v block: x·Wv + bv. -/
def out0_9 (x0 : Vec F S512x1024 .f32) (x3 : Vec F S1024x1024 .bf16) (x6 : Vec F S1x1024 .f32) : Vec F S512x1024 .bf16 :=
  View.canon [⟨rX, k0_pay4 (View.ld x0 rX) (View.ld x3 rW) (View.ld x6 rB)⟩]

/-- One whole-buffer store covers the buffer. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 4000000 in
/-- On whole staging memrefs, the inputs' at contents `x·` and the outputs' at anything, the body runs to the
    continuation with the inputs' as they were and each output's at its block. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S512x1024 .bf16) (harg8 : arg8.IsWhole)
    (arg9 : Memref sig .tc .vmem S512x1024 .bf16) (harg9 : arg9.IsWhole) (arg10 : Memref sig .tc .vmem S512x1024 .bf16) (harg10 : arg10.IsWhole)
    (x0 : Vec F S512x1024 .f32) (x1 x2 x3 : Vec F S1024x1024 .bf16) (x4 x5 x6 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x4) ∗ owns (c : Thread nD τ) arg9 fullShare (out0_8 x0 x2 x5)
            ∗ owns (c : Thread nD τ) arg10 fullShare (out0_9 x0 x3 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The arrays as the region finds them; after the body at point `t` each input's buffer at its block and each
    output's at its block of the input blocks; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Bits.R1Runs.lean ====
/-
  The attention region (the second kernel region), the part its two cases share. The grid is batch × query tile × key
  tile = 4 × 2 × 2; the body resets its three scratch buffers (running maximum, running sum, running numerator) where
  the key tile is 0 and writes the quotient into the output block where the key tile is 1, so a grid point is in one of
  two cases by its parity. Here: the windows' blocks, the two branch conditions in closed form over the grid, where the
  output window is idle, the staging and scratch memrefs, and the region's default invariant split into the scratch
  buffers and the rest.
-/
import proofs.«402078_j38448547233995_3_alg».proof.Proof.Gen.Kernel.Launch
import proofs.«402078_j38448547233995_3_alg».proof.Proof.Gen.Kernel.Skeleton
import proofs.«402078_j38448547233995_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The key tile is the first: the body resets its scratch. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The key tile is the last: the body writes the output block. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first-key-tile point the output window is idle and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a last-key-tile point it is live. -/
theorem liveAt1_3_B : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The scratch operands: the running maximum, the running sum, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## The region's default invariant, split -/

/-- The scoped buffers that are neither this region's staging buffers nor its scratch: the other region's staging
    buffers, each whole at some contents. The body never touches them. -/
def Oth1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f))

/-- The default invariant hands the body its three scratch buffers at some contents, beside the rest and the generator
    register, -/
theorem PhiA1_mp (c : Dev nD) :
    (Pipeline.ΦA spec1 c : sProp 𝕄) ⊢ iprop(Oth1 c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) := by
  unfold Pipeline.ΦA Oth1; rw [scopedRest1_eq]; simp only [scM1_0, scM1_1, scM1_2, owns_whole]
  iintro ⟨⟨H0, H1, H2, H3, H4, H5, H6, H7, H8, H9, H10, H11, H12, H13, S0, S1, S2⟩, Hg⟩
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [S0]; · iexact S0
  isplitl [S1]; · iexact S1
  isplitl [S2]; · iexact S2
  iexact Hg

/-- and takes them back. -/
theorem PhiA1_mpr (c : Dev nD) :
    iprop(Oth1 c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) ⊢ (Pipeline.ΦA spec1 c : sProp 𝕄) := by
  unfold Pipeline.ΦA Oth1; rw [scopedRest1_eq]; simp only [scM1_0, scM1_1, scM1_2, owns_whole]
  iintro ⟨⟨H0, H1, H2, H3, H4, H5, H6, H7, H8, H9, H10, H11, H12, H13⟩, S0, S1, S2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    iexact S2
  iexact Hg

end Cert.Kernel.Fr

end
-- ==== Proof.Bits.R1RunA.lean ====
/-
  The attention body at a first-key-tile point, run once on arbitrary whole memrefs: the three scratch buffers are taken at
  anything (the body resets them before reading them), the output block is idle and handed back untouched, and each
  scratch buffer ends with the list of pieces the body stored into it, last first.
-/
import proofs.«402078_j38448547233995_3_alg».proof.Proof.Bits.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case A (scratch reset, output not written): the pieces each scratch buffer ends with, and the body's triple. -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 x1 x2 : Vec F S1x1024x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.Bits.R1RunB.lean ====
/-
  The attention body at a last-key-tile point, run once on arbitrary whole memrefs: the three scratch buffers are taken at
  the contents the point before left (the body reads them before storing), the output block at anything, and each
  scratch buffer and the output block end with the list of pieces the body stored, last first.
-/
import proofs.«402078_j38448547233995_3_alg».proof.Proof.Bits.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case B (scratch carried, output written): the pieces the output block and each scratch buffer end with, and the
    body's triple. -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 x1 x2 : Vec F S1x1024x1024 .bf16) (xs0 xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Fr

end
-- ==== Proof.Bits.R1.lean ====
/-
  The attention region: what each of the body's two cases leaves in the scratch buffers and the output block (the
  pieces the symbolic run found, read back), what they hold after each grid point by recursion on the point — a
  first-key-tile point starts afresh, a last-key-tile point continues from what the point before left —, the region
  invariant that carries the three scratch buffers at those contents from one point to the next, the pipeline's proof
  data, and the body obligation at every point.
-/
import proofs.«402078_j38448547233995_3_alg».proof.Proof.Bits.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first-key-tile point stores nothing into the output block: a placeholder nothing consults (the window is idle
    there and not written back). -/
def out1_A_3 : Vec F S1x1024x1024 .f32 := VO1_3.read (Elt F) (VO1_3.writes (Elt F) VO1_3.junk [])

theorem scover1_A_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) (y : S1024x1.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S1024x1.size (by sl_kernel_rfl) y
/-- What case A leaves in scratch 0: its pieces read back. -/
def sout1_A_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).1)

theorem scover1_A_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
/-- What case A leaves in scratch 1: its pieces read back. -/
def sout1_A_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.1)

theorem scover1_A_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) (y : S1024x1024.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1024.size (by sl_kernel_rfl) y
/-- What case A leaves in scratch 2: its pieces read back. -/
def sout1_A_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.1)

theorem cover1_B_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) (y : S1x1024x1024.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x1024.size (by sl_kernel_rfl) y
/-- What case B leaves in the output block: its pieces read back. -/
def out1_B_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

theorem scover1_B_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
/-- What case B leaves in scratch 0: its pieces read back. -/
def sout1_B_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

theorem scover1_B_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
/-- What case B leaves in scratch 1: its pieces read back. -/
def sout1_B_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

theorem scover1_B_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y
/-- What case B leaves in scratch 2: its pieces read back. -/
def sout1_B_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-! ## What the buffers hold after each point -/

/-- The output block, then the three scratch buffers, after the body at position `n`: at an even position case A on the
    point's blocks; at an odd one case B on the point's blocks and what position `n - 1` left in the scratch. -/
def outsAt1 (c : Dev nD) : (n : ℕ) → n < cfg1.N → Vec F S1x1024x1024 .f32 × Vec F S1024x1 .f32 × Vec F S1024x1 .f32 × Vec F S1024x1024 .f32
  | 0, hn => (out1_A_3, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by omega)
      else
        (out1_A_3, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        False.elim (by omega)

theorem outsAt1_A (c : Dev nD) (t : Fin cfg1.N) (h0 : t.val % 2 = 0) (h1 : ¬t.val % 2 = 1) :
    outsAt1 V c t.val t.isLt = (out1_A_3, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point the default invariant (every scratch buffer at anything); afterwards the rest, the three
    scratch buffers at what the point before left in them, and the generator register at some state. -/
def PhiS (c : Dev nD) : (n : ℕ) → n ≤ cfg1.N → sProp 𝕄
  | 0, _ => Pipeline.ΦA spec1 c
  | n + 1, hn => iprop(Oth1 c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(Oth1 c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(Oth1 c ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point. The inputs' memrefs hold their blocks. At an even point the run of case A applies: the
    invariant hands it the scratch buffers at anything (at the very first point) or at what the point before left
    (which it overwrites), and the idle output block is handed back. At an odd point the run of case B applies on the
    scratch contents the point before left. Either way the invariant takes the scratch back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0 sout1_A_1 sout1_A_2; (try dsimp only)
    by_cases hz : t.val = 0
    · rw [PhiS_castSucc V c t, PhiS_zero V c _ _ hz]
      refine (sep_mono (PhiA1_mp c) .rfl).trans ?_
      iintro ⟨⟨HO, ⟨%e0, HS0⟩, ⟨%e1, HS1⟩, ⟨%e2, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HO HS0 HS1 HS2 Hg]
      · isplitl [HO]; · iexact HO
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HO, HS0, HS1, HS2, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HO HS0 HS1 HS2 Hg]
      · isplitl [HO]; · iexact HO
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0 sout1_B_1 sout1_B_2; (try dsimp only)
    rw [PhiS_castSucc V c t, PhiS_pos V c _ _ hz]
    iintro ⟨⟨HO, HS0, HS1, HS2, Hg⟩, Ho, ⟨%d0, H0⟩, ⟨%d1, H1⟩, ⟨%d2, H2⟩, ⟨%d3, H3⟩⟩
    iapply ((kernelRun1_B c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HO HS0 HS1 HS2 Hg]
    · isplitl [HO]; · iexact HO
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the default one back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega)]
  refine .trans ?_ (PhiA1_mpr c)
  iintro ⟨HO, HS0, HS1, HS2, Hg⟩
  isplitl [HO]; · iexact HO
  isplitl [HS0]; · iexists _; iexact HS0
  isplitl [HS1]; · iexists _; iexact HS1
  isplitl [HS2]; · iexists _; iexact HS2
  iexact Hg

end Cert.Kernel.Fr

end
-- ==== Proof.Bits.Run.lean ====
/-
  The whole program run: @main is a stretch of host operations (a reshape of x, the three weights' change of format,
  three bias reshapes), the projection region, three reshapes of q, k, v, and the attention region. The buffer
  contents at each of the four boundaries are a fold from the launch memory: a host stretch applies its operations, a
  region replaces its arrays by what its pipeline leaves. Each region is a segment entered from every unscoped buffer
  at its boundary's contents; the run ends with every unscoped buffer at the last boundary's contents, from which the
  result array and the unchanged arguments are read.
-/
import proofs.«402078_j38448547233995_3_alg».proof.Proof.Bits.R0
import proofs.«402078_j38448547233995_3_alg».proof.Proof.Bits.R1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation writes one and no region stages one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split
    out of the unscoped buffers and put back at what the pipeline leaves; the generator register goes into the region
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at what the pipeline leaves; the generator register goes into the region
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (V3 m) c)
    unfold Pipeline.ΦA
    iintro ⟨Hp, -, Hr⟩
    isplitl [Hr]; · iexact Hr
    iexact Hp
  hout c := by
    refine (show (pdats m 1 c).Φ (Fin.last _) ⊢ Pipeline.ΦA spec1 c from hout1 (V3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run's post read at the result array and the seven arguments: the result holds what the attention region's
    pipeline leaves in its output array, the arguments their launch contents. -/
theorem run_result : θ_run defs (onTc (τ := τ) (main (F := F))) ⟨m, fun _ => 0, ρ⟩ (fun r => ∀ c : Dev nD,
      r.2.mem ((c.tc : Thread nD τ).loc main_v11) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v11 (by decide))).trans (W4_arr m c 3),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.Kernel.Fr

end
-- ==== Proof.R0.lean ====
/-
  The projection region (the first of the program's two kernel regions): at each of its 16 grid points the body loads
  a block of 512 rows of x, the three weights and the three bias rows whole, and stores one block of 512 rows into
  each of q, k and v. Nothing is carried between points. This module states what each output's staging buffer holds
  after the body as a function of the input blocks, runs the body once on arbitrary whole staging memrefs, and
  packages the result as the pipeline's proof data and its obligation at every grid point, for any contents `V`
  of the buffers at the region's entry.
-/
import proofs.«402078_j38448547233995_3_alg».proof.Proof.Gen.KernelIdeal.Launch
import proofs.«402078_j38448547233995_3_alg».proof.Proof.Gen.KernelIdeal.Skeleton
import proofs.«402078_j38448547233995_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there or
    not (a weight or a bias row is fetched once: its block index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every load and store takes a whole buffer -/

abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-! ## What the body leaves in each output's staging buffer -/

/-- The q block: (x·Wq + bq)·(1/32) of the loaded blocks. -/
def out0_7 (x0 : Vec F S512x1024 .f32) (x1 : Vec F S1024x1024 .bf16) (x4 : Vec F S1x1024 .f32) : Vec F S512x1024 .bf16 :=
  View.canon [⟨rX, k0_pay2 (View.ld x0 rX) (View.ld x1 rW) (View.ld x4 rB)⟩]
/-- The k block: x·Wk + bk. -/
def out0_8 (x0 : Vec F S512x1024 .f32) (x2 : Vec F S1024x1024 .bf16) (x5 : Vec F S1x1024 .f32) : Vec F S512x1024 .bf16 :=
  View.canon [⟨rX, k0_pay3 (View.ld x0 rX) (View.ld x2 rW) (View.ld x5 rB)⟩]
/-- The v block: x·Wv + bv. -/
def out0_9 (x0 : Vec F S512x1024 .f32) (x3 : Vec F S1024x1024 .bf16) (x6 : Vec F S1x1024 .f32) : Vec F S512x1024 .bf16 :=
  View.canon [⟨rX, k0_pay4 (View.ld x0 rX) (View.ld x3 rW) (View.ld x6 rB)⟩]

/-- One whole-buffer store covers the buffer. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 4000000 in
/-- On whole staging memrefs, the inputs' at contents `x·` and the outputs' at anything, the body runs to the
    continuation with the inputs' as they were and each output's at its block. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S512x1024 .bf16) (harg8 : arg8.IsWhole)
    (arg9 : Memref sig .tc .vmem S512x1024 .bf16) (harg9 : arg9.IsWhole) (arg10 : Memref sig .tc .vmem S512x1024 .bf16) (harg10 : arg10.IsWhole)
    (x0 : Vec F S512x1024 .f32) (x1 x2 x3 : Vec F S1024x1024 .bf16) (x4 x5 x6 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out0_7 x0 x1 x4) ∗ owns (c : Thread nD τ) arg9 fullShare (out0_8 x0 x2 x5)
            ∗ owns (c : Thread nD τ) arg10 fullShare (out0_9 x0 x3 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The arrays as the region finds them; after the body at point `t` each input's buffer at its block and each
    output's at its block of the input blocks; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.R1Runs.lean ====
/-
  The attention region (the second kernel region), the part its two cases share. The grid is batch × query tile × key
  tile = 4 × 2 × 2; the body resets its three scratch buffers (running maximum, running sum, running numerator) where
  the key tile is 0 and writes the quotient into the output block where the key tile is 1, so a grid point is in one of
  two cases by its parity. Here: the windows' blocks, the two branch conditions in closed form over the grid, where the
  output window is idle, the staging and scratch memrefs, and the region's default invariant split into the scratch
  buffers and the rest.
-/
import proofs.«402078_j38448547233995_3_alg».proof.Proof.Gen.KernelIdeal.Launch
import proofs.«402078_j38448547233995_3_alg».proof.Proof.Gen.KernelIdeal.Skeleton
import proofs.«402078_j38448547233995_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The key tile is the first: the body resets its scratch. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The key tile is the last: the body writes the output block. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first-key-tile point the output window is idle and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a last-key-tile point it is live. -/
theorem liveAt1_3_B : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The scratch operands: the running maximum, the running sum, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## The region's default invariant, split -/

/-- The scoped buffers that are neither this region's staging buffers nor its scratch: the other region's staging
    buffers, each whole at some contents. The body never touches them. -/
def Oth1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg9_1), ((c : Thread nD τ).loc cc0_stg9_1) ↦{fullShare} f))

/-- The default invariant hands the body its three scratch buffers at some contents, beside the rest and the generator
    register, -/
theorem PhiA1_mp (c : Dev nD) :
    (Pipeline.ΦA spec1 c : sProp 𝕄) ⊢ iprop(Oth1 c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) := by
  unfold Pipeline.ΦA Oth1; rw [scopedRest1_eq]; simp only [scM1_0, scM1_1, scM1_2, owns_whole]
  iintro ⟨⟨H0, H1, H2, H3, H4, H5, H6, H7, H8, H9, H10, H11, H12, H13, S0, S1, S2⟩, Hg⟩
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [S0]; · iexact S0
  isplitl [S1]; · iexact S1
  isplitl [S2]; · iexact S2
  iexact Hg

/-- and takes them back. -/
theorem PhiA1_mpr (c : Dev nD) :
    iprop(Oth1 c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) ⊢ (Pipeline.ΦA spec1 c : sProp 𝕄) := by
  unfold Pipeline.ΦA Oth1; rw [scopedRest1_eq]; simp only [scM1_0, scM1_1, scM1_2, owns_whole]
  iintro ⟨⟨H0, H1, H2, H3, H4, H5, H6, H7, H8, H9, H10, H11, H12, H13⟩, S0, S1, S2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    iexact S2
  iexact Hg

end Cert.KernelIdeal.Fr

end
-- ==== Proof.R1RunA.lean ====
/-
  The attention body at a first-key-tile point, run once on arbitrary whole memrefs: the three scratch buffers are taken at
  anything (the body resets them before reading them), the output block is idle and handed back untouched, and each
  scratch buffer ends with the list of pieces the body stored into it, last first.
-/
import proofs.«402078_j38448547233995_3_alg».proof.Proof.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case A (scratch reset, output not written): the pieces each scratch buffer ends with, and the body's triple. -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 x1 x2 : Vec F S1x1024x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.R1RunB.lean ====
/-
  The attention body at a last-key-tile point, run once on arbitrary whole memrefs: the three scratch buffers are taken at
  the contents the point before left (the body reads them before storing), the output block at anything, and each
  scratch buffer and the output block end with the list of pieces the body stored, last first.
-/
import proofs.«402078_j38448547233995_3_alg».proof.Proof.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- Case B (scratch carried, output written): the pieces the output block and each scratch buffer end with, and the
    body's triple. -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 x1 x2 : Vec F S1x1024x1024 .bf16) (xs0 xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.R1.lean ====
/-
  The attention region: what each of the body's two cases leaves in the scratch buffers and the output block (the
  pieces the symbolic run found, read back), what they hold after each grid point by recursion on the point — a
  first-key-tile point starts afresh, a last-key-tile point continues from what the point before left —, the region
  invariant that carries the three scratch buffers at those contents from one point to the next, the pipeline's proof
  data, and the body obligation at every point.
-/
import proofs.«402078_j38448547233995_3_alg».proof.Proof.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first-key-tile point stores nothing into the output block: a placeholder nothing consults (the window is idle
    there and not written back). -/
def out1_A_3 : Vec F S1x1024x1024 .f32 := VO1_3.read (Elt F) (VO1_3.writes (Elt F) VO1_3.junk [])

theorem scover1_A_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) (y : S1024x1.Idx) :
    ∃ pc ∈ (kernelRun1_A c i arg3 harg3 arg4 harg4 arg5 harg5 arg6 harg6 arg7 harg7 arg8 harg8 arg9 harg9 hc0 hc1 x0 x1 x2).1, y ∈ pc.1.set :=
  View.cover_of_tiledL (kernelRun1_A c i arg3 harg3 arg4 harg4 arg5 harg5 arg6 harg6 arg7 harg7 arg8 harg8 arg9 harg9 hc0 hc1 x0 x1 x2).1 S1024x1.size (by sl_kernel_rfl) y
/-- What case A leaves in scratch 0: its pieces read back. -/
def sout1_A_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).1)

theorem scover1_A_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y
/-- What case A leaves in scratch 1: its pieces read back. -/
def sout1_A_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.1)

theorem scover1_A_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) (y : S1024x1024.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1024.size (by sl_kernel_rfl) y
/-- What case A leaves in scratch 2: its pieces read back. -/
def sout1_A_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.1)

theorem cover1_B_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) (y : S1x1024x1024.Idx) :
    ∃ pc ∈ (kernelRun1_B c i arg3 harg3 arg4 harg4 arg5 harg5 arg6 harg6 arg7 harg7 arg8 harg8 arg9 harg9 hc0 hc1 x0 x1 x2 xs0 xs1 xs2).1, y ∈ pc.1.set :=
  View.cover_of_tiledL (kernelRun1_B c i arg3 harg3 arg4 harg4 arg5 harg5 arg6 harg6 arg7 harg7 arg8 harg8 arg9 harg9 hc0 hc1 x0 x1 x2 xs0 xs1 xs2).1 S1x1024x1024.size (by sl_kernel_rfl) y
/-- What case B leaves in the output block: its pieces read back. -/
def out1_B_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

theorem scover1_B_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y
/-- What case B leaves in scratch 0: its pieces read back. -/
def sout1_B_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

theorem scover1_B_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y
/-- What case B leaves in scratch 1: its pieces read back. -/
def sout1_B_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

theorem scover1_B_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y
/-- What case B leaves in scratch 2: its pieces read back. -/
def sout1_B_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-! ## What the buffers hold after each point -/

/-- The output block, then the three scratch buffers, after the body at position `n`: at an even position case A on the
    point's blocks; at an odd one case B on the point's blocks and what position `n - 1` left in the scratch. -/
def outsAt1 (c : Dev nD) : (n : ℕ) → n < cfg1.N → Vec F S1x1024x1024 .f32 × Vec F S1024x1 .f32 × Vec F S1024x1 .f32 × Vec F S1024x1024 .f32
  | 0, hn => (out1_A_3, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by omega)
      else
        (out1_A_3, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        False.elim (by omega)

theorem outsAt1_A (c : Dev nD) (t : Fin cfg1.N) (h0 : t.val % 2 = 0) (h1 : ¬t.val % 2 = 1) :
    outsAt1 V c t.val t.isLt = (out1_A_3, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point the default invariant (every scratch buffer at anything); afterwards the rest, the three
    scratch buffers at what the point before left in them, and the generator register at some state. -/
def PhiS (c : Dev nD) : (n : ℕ) → n ≤ cfg1.N → sProp 𝕄
  | 0, _ => Pipeline.ΦA spec1 c
  | n + 1, hn => iprop(Oth1 c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(Oth1 c ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(Oth1 c ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point. The inputs' memrefs hold their blocks. At an even point the run of case A applies: the
    invariant hands it the scratch buffers at anything (at the very first point) or at what the point before left
    (which it overwrites), and the idle output block is handed back. At an odd point the run of case B applies on the
    scratch contents the point before left. Either way the invariant takes the scratch back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0 sout1_A_1 sout1_A_2; (try dsimp only)
    by_cases hz : t.val = 0
    · rw [PhiS_castSucc V c t, PhiS_zero V c _ _ hz]
      refine (sep_mono (PhiA1_mp c) .rfl).trans ?_
      iintro ⟨⟨HO, ⟨%e0, HS0⟩, ⟨%e1, HS1⟩, ⟨%e2, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HO HS0 HS1 HS2 Hg]
      · isplitl [HO]; · iexact HO
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HO, HS0, HS1, HS2, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HO HS0 HS1 HS2 Hg]
      · isplitl [HO]; · iexact HO
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0 sout1_B_1 sout1_B_2; (try dsimp only)
    rw [PhiS_castSucc V c t, PhiS_pos V c _ _ hz]
    iintro ⟨⟨HO, HS0, HS1, HS2, Hg⟩, Ho, ⟨%d0, H0⟩, ⟨%d1, H1⟩, ⟨%d2, H2⟩, ⟨%d3, H3⟩⟩
    iapply ((kernelRun1_B c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HO HS0 HS1 HS2 Hg]
    · isplitl [HO]; · iexact HO
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the default one back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega)]
  refine .trans ?_ (PhiA1_mpr c)
  iintro ⟨HO, HS0, HS1, HS2, Hg⟩
  isplitl [HO]; · iexact HO
  isplitl [HS0]; · iexists _; iexact HS0
  isplitl [HS1]; · iexists _; iexact HS1
  isplitl [HS2]; · iexists _; iexact HS2
  iexact Hg

end Cert.KernelIdeal.Fr

end
-- ==== Proof.Run.lean ====
/-
  The whole program run: @main is a stretch of host operations (a reshape of x, the three weights' change of format,
  three bias reshapes), the projection region, three reshapes of q, k, v, and the attention region. The buffer
  contents at each of the four boundaries are a fold from the launch memory: a host stretch applies its operations, a
  region replaces its arrays by what its pipeline leaves. Each region is a segment entered from every unscoped buffer
  at its boundary's contents; the run ends with every unscoped buffer at the last boundary's contents, from which the
  result array and the unchanged arguments are read.
-/
import proofs.«402078_j38448547233995_3_alg».proof.Proof.R0
import proofs.«402078_j38448547233995_3_alg».proof.Proof.R1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation writes one and no region stages one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_forall_not_mem _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are split
    out of the unscoped buffers and put back at what the pipeline leaves; the generator register goes into the region
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at what the pipeline leaves; the generator register goes into the region
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (V3 m) c)
    unfold Pipeline.ΦA
    iintro ⟨Hp, -, Hr⟩
    isplitl [Hr]; · iexact Hr
    iexact Hp
  hout c := by
    refine (show (pdats m 1 c).Φ (Fin.last _) ⊢ Pipeline.ΦA spec1 c from hout1 (V3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run's post read at the result array and the seven arguments: the result holds what the attention region's
    pipeline leaves in its output array, the arguments their launch contents. -/
theorem run_result : θ_run defs (onTc (τ := τ) (main (F := F))) ⟨m, fun _ => 0, ρ⟩ (fun r => ∀ c : Dev nD,
      r.2.mem ((c.tc : Thread nD τ).loc main_v11) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v11 (by decide))).trans (W4_arr m c 3),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.KernelIdeal.Fr

end
-- ==== Proof.Spec.lean ====
/-
  Attention over f32[4, 2048, 1024] with three linear layers in front of it, written twice over plain coordinates
  on the extended reals.

  Both programs first form q = x·Wq + bq, k = x·Wk + bk, v = x·Wv + bv (a row of x against a column of the weight,
  plus the bias). The reference then takes, for a query row n of batch p, the scores (q·k)·(1/32) against all 2048
  keys, subtracts their maximum, exponentiates, divides each by the row's sum and contracts the weights with v.
  The kernel multiplies q by 1/32 once, walks the keys in two tiles of 1024 and keeps a running maximum, a running
  sum and a running numerator: after the first tile they are m0, l0, acc0 taken against m0; the second tile
  rescales them by exp (m0 - m1) where m1 is the larger maximum, adds its own terms taken against m1, and the
  result is the numerator over the sum. `kOut_eq_rOut` says the two are one function when every input is a real.
-/
import Idealize.ShloMosaic.PureOps.Ideal
import Mathlib.Algebra.BigOperators.Fin
import Idealize.ShloMosaic.Lib.ValueIdx

noncomputable section

namespace Cert.Attn

open Idealize.ShloMosaic

abbrev T3 := Fin 4 → Fin 2048 → Fin 1024 → EReal
abbrev T2 := Fin 1024 → Fin 1024 → EReal
abbrev T1 := Fin 1024 → EReal

/-- An array of the literal shape read at coordinates. -/
def c3 (a : (⟨3, ![4, 2048, 1024]⟩ : Shape).Idx → EReal) : T3 := fun p n d => a (ValueIdx.ix3 p n d)
def c2 (a : (⟨2, ![1024, 1024]⟩ : Shape).Idx → EReal) : T2 := fun d e => a (ValueIdx.ix2 d e)
def c1 (a : (⟨1, ![1024]⟩ : Shape).Idx → EReal) : T1 := fun e => a (ValueIdx.ix1 e)

/-- A linear layer: row n of batch p against column e of the weight, plus the bias. -/
def proj (x : T3) (w : T2) (b : T1) : T3 := fun p n e => (∑ d : Fin 1024, x p n d * w d e) + b e

/-- The softmax scale 1/sqrt(1024) = 1/32. -/
def s32 : EReal := ((1 / 32 : ℝ) : EReal)

/-- Row i of tile t among the 2048 rows. -/
def row (t : Fin 2) (i : Fin 1024) : Fin 2048 := ⟨t.val * 1024 + i.val, by have := t.isLt; have := i.isLt; omega⟩

/-- The maximum of a finite family, from -∞. -/
def fmax {n : Nat} (f : Fin n → EReal) : EReal := (Finset.univ : Finset (Fin n)).fold max ⊥ f

section
variable (x : T3) (wq wk wv : T2) (bq bk bv : T1)

/-! ## The reference -/

/-- The score of query row n against key row j, scaled after the contraction. -/
def rScore (p : Fin 4) (n j : Fin 2048) : EReal :=
  (∑ e : Fin 1024, proj x wq bq p n e * proj x wk bk p j e) * s32
def rMax (p : Fin 4) (n : Fin 2048) : EReal := fmax fun j => rScore x wq wk bq bk p n j
def rExp (p : Fin 4) (n j : Fin 2048) : EReal := Ideal.exp (rScore x wq wk bq bk p n j - rMax x wq wk bq bk p n)
def rSum (p : Fin 4) (n : Fin 2048) : EReal := ∑ j : Fin 2048, rExp x wq wk bq bk p n j
/-- Softmax weights contracted with v. -/
def rOut (p : Fin 4) (n : Fin 2048) (e : Fin 1024) : EReal :=
  ∑ j : Fin 2048, Ideal.div (rExp x wq wk bq bk p n j) (rSum x wq wk bq bk p n) * proj x wv bv p j e

/-! ## The kernel -/

/-- q with the scale folded in. -/
def kq (p : Fin 4) (n : Fin 2048) (e : Fin 1024) : EReal := proj x wq bq p n e * s32
/-- The score of row i of query tile t against row j of key tile kv. -/
def kScore (p : Fin 4) (t kv : Fin 2) (i j : Fin 1024) : EReal :=
  ∑ e : Fin 1024, kq x wq bq p (row t i) e * proj x wk bk p (row kv j) e
/-- After the first key tile: its row maximum, -/
def kM0 (p : Fin 4) (t : Fin 2) (i : Fin 1024) : EReal := fmax fun j => kScore x wq wk bq bk p t 0 i j
/-- the sum of its exponentials taken against that maximum, -/
def kL0 (p : Fin 4) (t : Fin 2) (i : Fin 1024) : EReal :=
  ∑ j : Fin 1024, Ideal.exp (kScore x wq wk bq bk p t 0 i j - kM0 x wq wk bq bk p t i)
/-- and those exponentials contracted with v's first tile. -/
def kAcc0 (p : Fin 4) (t : Fin 2) (i e : Fin 1024) : EReal :=
  ∑ j : Fin 1024, Ideal.exp (kScore x wq wk bq bk p t 0 i j - kM0 x wq wk bq bk p t i) * proj x wv bv p (row 0 j) e
/-- After the second key tile: the larger maximum, -/
def kM1 (p : Fin 4) (t : Fin 2) (i : Fin 1024) : EReal :=
  max (kM0 x wq wk bq bk p t i) (fmax fun j => kScore x wq wk bq bk p t 1 i j)
/-- the factor that moves the first tile's terms to it, -/
def kA1 (p : Fin 4) (t : Fin 2) (i : Fin 1024) : EReal :=
  Ideal.exp (kM0 x wq wk bq bk p t i - kM1 x wq wk bq bk p t i)
/-- the rescaled sum plus the second tile's, -/
def kL1 (p : Fin 4) (t : Fin 2) (i : Fin 1024) : EReal :=
  kA1 x wq wk bq bk p t i * kL0 x wq wk bq bk p t i
    + ∑ j : Fin 1024, Ideal.exp (kScore x wq wk bq bk p t 1 i j - kM1 x wq wk bq bk p t i)
/-- the rescaled numerator plus the second tile's, -/
def kAcc1 (p : Fin 4) (t : Fin 2) (i e : Fin 1024) : EReal :=
  kA1 x wq wk bq bk p t i * kAcc0 x wq wk wv bq bk bv p t i e
    + ∑ j : Fin 1024, Ideal.exp (kScore x wq wk bq bk p t 1 i j - kM1 x wq wk bq bk p t i) * proj x wv bv p (row 1 j) e
/-- and the quotient the kernel writes out. -/
def kOut (p : Fin 4) (t : Fin 2) (i e : Fin 1024) : EReal :=
  Ideal.div (kAcc1 x wq wk wv bq bk bv p t i e) (kL1 x wq wk bq bk p t i)

end

end Cert.Attn

end
-- ==== Proof.SpecT.lean ====
/-
  The kernel's two-tile running softmax over ARBITRARY q, k, v arrays (q already scaled), and the fact that
  `Cert.Attn.kOut` is this at q = (x·Wq + bq)·(1/32), k = x·Wk + bk, v = x·Wv + bv.
-/
import proofs.«402078_j38448547233995_3_alg».proof.Proof.Spec

noncomputable section

namespace Cert.Attn

open Idealize.ShloMosaic

/-- A rank-2 array of extended reals read at coordinates, and a rank-3 one. -/
def rd2 {n0 n1 : Nat} (a : (⟨2, ![n0, n1]⟩ : Shape).Idx → EReal) (i : Fin n0) (j : Fin n1) : EReal := a (ValueIdx.ix2 i j)
def rd3 {n0 n1 n2 : Nat} (a : (⟨3, ![n0, n1, n2]⟩ : Shape).Idx → EReal) (i : Fin n0) (j : Fin n1) (l : Fin n2) : EReal :=
  a (ValueIdx.ix3 i j l)

section
variable (q k v : T3)

/-- The score of row i of query tile t against row j of key tile kv. -/
def tScore (p : Fin 4) (t kv : Fin 2) (i j : Fin 1024) : EReal :=
  ∑ e : Fin 1024, q p (row t i) e * k p (row kv j) e
def tM0 (p : Fin 4) (t : Fin 2) (i : Fin 1024) : EReal := fmax fun j => tScore q k p t 0 i j
def tL0 (p : Fin 4) (t : Fin 2) (i : Fin 1024) : EReal :=
  ∑ j : Fin 1024, Ideal.exp (tScore q k p t 0 i j - tM0 q k p t i)
def tAcc0 (p : Fin 4) (t : Fin 2) (i e : Fin 1024) : EReal :=
  ∑ j : Fin 1024, Ideal.exp (tScore q k p t 0 i j - tM0 q k p t i) * v p (row 0 j) e
def tM1 (p : Fin 4) (t : Fin 2) (i : Fin 1024) : EReal :=
  max (tM0 q k p t i) (fmax fun j => tScore q k p t 1 i j)
def tA1 (p : Fin 4) (t : Fin 2) (i : Fin 1024) : EReal := Ideal.exp (tM0 q k p t i - tM1 q k p t i)
def tL1 (p : Fin 4) (t : Fin 2) (i : Fin 1024) : EReal :=
  tA1 q k p t i * tL0 q k p t i + ∑ j : Fin 1024, Ideal.exp (tScore q k p t 1 i j - tM1 q k p t i)
def tAcc1 (p : Fin 4) (t : Fin 2) (i e : Fin 1024) : EReal :=
  tA1 q k p t i * tAcc0 q k v p t i e
    + ∑ j : Fin 1024, Ideal.exp (tScore q k p t 1 i j - tM1 q k p t i) * v p (row 1 j) e
/-- The quotient the kernel writes out at row i of query tile t. -/
def tOut (p : Fin 4) (t : Fin 2) (i e : Fin 1024) : EReal :=
  Ideal.div (tAcc1 q k v p t i e) (tL1 q k p t i)

end

/-- The kernel's formula over the argument arrays is the two-tile formula at its own q, k, v. -/
theorem kOut_eq_tOut (x : T3) (wq wk wv : T2) (bq bk bv : T1) (p : Fin 4) (t : Fin 2) (i e : Fin 1024) :
    kOut x wq wk wv bq bk bv p t i e = tOut (kq x wq bq) (proj x wk bk) (proj x wv bv) p t i e := by
  rfl

end Cert.Attn

end
-- ==== Proof.Glue.lean ====
/-
  The host operations around the two regions, read at an index. Before the projection region: x reshaped to
  [8192, 1024] (row p·2048 + n is row n of batch p), the weights unchanged at the extended reals (a change of format
  is the identity), the biases reshaped to one row. Between the regions: q, k, v reshaped back to [4, 2048, 1024], so
  the attention region finds at (p, n, e) what the projection region left at (p·2048 + n, e).
-/
import proofs.«402078_j38448547233995_3_alg».proof.Proof.Run
import proofs.«402078_j38448547233995_3_alg».proof.Proof.SpecT
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.FrValue

open Cert.KernelIdeal Cert.KernelIdeal.Gen Cert.KernelIdeal.Fr
open Idealize.ShloMosaic Idealize.ShloMosaic.TcCoe Idealize.SL.Sem
open Cert.Attn (rd2 rd3)

variable (m : (ℓ : Loc nD τ sig) → Buf (Elt Ideal) ℓ)

/-- Row n of batch p among the 8192 flattened rows. -/
def flat (p : Fin 4) (n : Fin 2048) : Fin 8192 := ⟨p.val * 2048 + n.val, by have := p.isLt; have := n.isLt; omega⟩

/-! ## The host operations' results as pure terms -/

/-- x as the projection region finds it: the launch array reshaped to [8192, 1024]. -/
theorem V1_main_v0 (c : Dev nD) :
    (V1 m c main_v0 : S8192x1024.Idx → EReal)
      = shapeCast S8192x1024 (m ((c.tc : Thread nD τ).loc main_arg0) : S4x2048x1024.Idx → EReal) shapeCasts_S4x2048x1024_S8192x1024 := by
  show StableHlo.after hostOps0 (W0 m c) (Proc.devRef .tc main_v0) = _
  after_results
  rfl

/-- A weight as the region finds it: the launch array (the change of format is the identity on extended reals). -/
theorem V1_main_v1 (c : Dev nD) :
    (V1 m c main_v1 : S1024x1024.Idx → EReal) = (m ((c.tc : Thread nD τ).loc main_arg1) : S1024x1024.Idx → EReal) := by
  show StableHlo.after hostOps0 (W0 m c) (Proc.devRef .tc main_v1) = _
  after_results
  rfl
theorem V1_main_v2 (c : Dev nD) :
    (V1 m c main_v2 : S1024x1024.Idx → EReal) = (m ((c.tc : Thread nD τ).loc main_arg2) : S1024x1024.Idx → EReal) := by
  show StableHlo.after hostOps0 (W0 m c) (Proc.devRef .tc main_v2) = _
  after_results
  rfl
theorem V1_main_v3 (c : Dev nD) :
    (V1 m c main_v3 : S1024x1024.Idx → EReal) = (m ((c.tc : Thread nD τ).loc main_arg3) : S1024x1024.Idx → EReal) := by
  show StableHlo.after hostOps0 (W0 m c) (Proc.devRef .tc main_v3) = _
  after_results
  rfl

/-- A bias as the region finds it: the launch vector reshaped to one row. -/
theorem V1_main_v4 (c : Dev nD) :
    (V1 m c main_v4 : S1x1024.Idx → EReal)
      = shapeCast S1x1024 (m ((c.tc : Thread nD τ).loc main_arg4) : S1024.Idx → EReal) shapeCasts_S1024_S1x1024 := by
  show StableHlo.after hostOps0 (W0 m c) (Proc.devRef .tc main_v4) = _
  after_results
  rfl
theorem V1_main_v5 (c : Dev nD) :
    (V1 m c main_v5 : S1x1024.Idx → EReal)
      = shapeCast S1x1024 (m ((c.tc : Thread nD τ).loc main_arg5) : S1024.Idx → EReal) shapeCasts_S1024_S1x1024 := by
  show StableHlo.after hostOps0 (W0 m c) (Proc.devRef .tc main_v5) = _
  after_results
  rfl
theorem V1_main_v6 (c : Dev nD) :
    (V1 m c main_v6 : S1x1024.Idx → EReal)
      = shapeCast S1x1024 (m ((c.tc : Thread nD τ).loc main_arg6) : S1024.Idx → EReal) shapeCasts_S1024_S1x1024 := by
  show StableHlo.after hostOps0 (W0 m c) (Proc.devRef .tc main_v6) = _
  after_results
  rfl

/-! ## The reshapes read at an index -/

/-- [4, 2048, 1024] → [8192, 1024]: row p·2048 + n of the flat array is row n of batch p. -/
theorem flatten_ix (a : S4x2048x1024.Idx → EReal) (p : Fin 4) (n : Fin 2048) (d : Fin 1024) :
    shapeCast S8192x1024 a shapeCasts_S4x2048x1024_S8192x1024 (ValueIdx.ix2 (flat p n) d) = a (ValueIdx.ix3 p n d) := by
  refine shapeCast_apply a shapeCasts_S4x2048x1024_S8192x1024 (ValueIdx.ix2 (flat p n) d) (ValueIdx.ix3 p n d) ?_
  rw [Shape.rowMajor_val_three, Shape.rowMajor_val_two]
  rfl

/-- [8192, 1024] → [4, 2048, 1024]: the other way. -/
theorem unflatten_ix (a : S8192x1024.Idx → EReal) (p : Fin 4) (n : Fin 2048) (d : Fin 1024) :
    shapeCast S4x2048x1024 a shapeCasts_S8192x1024_S4x2048x1024 (ValueIdx.ix3 p n d) = a (ValueIdx.ix2 (flat p n) d) := by
  refine shapeCast_apply a shapeCasts_S8192x1024_S4x2048x1024 (ValueIdx.ix3 p n d) (ValueIdx.ix2 (flat p n) d) ?_
  rw [Shape.rowMajor_val_three, Shape.rowMajor_val_two]
  rfl

/-- [1024] → [1, 1024]: column e of the one row is element e. -/
theorem row_ix (a : S1024.Idx → EReal) (e : Fin 1024) :
    shapeCast S1x1024 a shapeCasts_S1024_S1x1024 (ValueIdx.ix2 (0 : Fin 1) e) = a (ValueIdx.ix1 e) := by
  refine shapeCast_apply a shapeCasts_S1024_S1x1024 (ValueIdx.ix2 (0 : Fin 1) e) (ValueIdx.ix1 e) ?_
  rw [Shape.rowMajor_val_one, Shape.rowMajor_val_two]
  show e.val = 0 * 1024 + e.val
  omega

/-! ## Before the projection region -/

theorem x2_apply (c : Dev nD) (p : Fin 4) (n : Fin 2048) (d : Fin 1024) :
    rd2 (n0 := 8192) (n1 := 1024) (V1 m c main_v0) (flat p n) d
      = rd3 (n0 := 4) (n1 := 2048) (n2 := 1024) (m ((c.tc : Thread nD τ).loc main_arg0)) p n d := by
  unfold rd2 rd3
  rw [V1_main_v0]
  exact flatten_ix _ p n d
theorem wq_apply (c : Dev nD) (d e : Fin 1024) :
    rd2 (n0 := 1024) (n1 := 1024) (V1 m c main_v1) d e = rd2 (n0 := 1024) (n1 := 1024) (m ((c.tc : Thread nD τ).loc main_arg1)) d e := by
  unfold rd2
  rw [V1_main_v1]
theorem wk_apply (c : Dev nD) (d e : Fin 1024) :
    rd2 (n0 := 1024) (n1 := 1024) (V1 m c main_v2) d e = rd2 (n0 := 1024) (n1 := 1024) (m ((c.tc : Thread nD τ).loc main_arg2)) d e := by
  unfold rd2
  rw [V1_main_v2]
theorem wv_apply (c : Dev nD) (d e : Fin 1024) :
    rd2 (n0 := 1024) (n1 := 1024) (V1 m c main_v3) d e = rd2 (n0 := 1024) (n1 := 1024) (m ((c.tc : Thread nD τ).loc main_arg3)) d e := by
  unfold rd2
  rw [V1_main_v3]
theorem bq_apply (c : Dev nD) (e : Fin 1024) :
    rd2 (n0 := 1) (n1 := 1024) (V1 m c main_v4) 0 e = Cert.Attn.c1 (m ((c.tc : Thread nD τ).loc main_arg4)) e := by
  unfold rd2 Cert.Attn.c1
  rw [V1_main_v4]
  exact row_ix _ e
theorem bk_apply (c : Dev nD) (e : Fin 1024) :
    rd2 (n0 := 1) (n1 := 1024) (V1 m c main_v5) 0 e = Cert.Attn.c1 (m ((c.tc : Thread nD τ).loc main_arg5)) e := by
  unfold rd2 Cert.Attn.c1
  rw [V1_main_v5]
  exact row_ix _ e
theorem bv_apply (c : Dev nD) (e : Fin 1024) :
    rd2 (n0 := 1) (n1 := 1024) (V1 m c main_v6) 0 e = Cert.Attn.c1 (m ((c.tc : Thread nD τ).loc main_arg6)) e := by
  unfold rd2 Cert.Attn.c1
  rw [V1_main_v6]
  exact row_ix _ e

/-! ## Between the regions -/

/-- q as the attention region finds it: what the projection region left, reshaped to [4, 2048, 1024]. -/
theorem V3_main_v8 (c : Dev nD) :
    (V3 m c main_v8 : S4x2048x1024.Idx → EReal)
      = shapeCast S4x2048x1024 ((dat0 (F := Ideal) (V1 m) c).arrAt 7 cfg0.N : S8192x1024.Idx → EReal) shapeCasts_S8192x1024_S4x2048x1024 := by
  have h : W2 m c (Proc.devRef .tc main_v7_0) = (dat0 (F := Ideal) (V1 m) c).arrAt 7 cfg0.N := W2_arr m c 7
  show StableHlo.after hostOps1 (W2 m c) (Proc.devRef .tc main_v8) = _
  after_results
  rw [h]
  rfl
theorem V3_main_v9 (c : Dev nD) :
    (V3 m c main_v9 : S4x2048x1024.Idx → EReal)
      = shapeCast S4x2048x1024 ((dat0 (F := Ideal) (V1 m) c).arrAt 8 cfg0.N : S8192x1024.Idx → EReal) shapeCasts_S8192x1024_S4x2048x1024 := by
  have h : W2 m c (Proc.devRef .tc main_v7_1) = (dat0 (F := Ideal) (V1 m) c).arrAt 8 cfg0.N := W2_arr m c 8
  show StableHlo.after hostOps1 (W2 m c) (Proc.devRef .tc main_v9) = _
  after_results
  rw [h]
  rfl
theorem V3_main_v10 (c : Dev nD) :
    (V3 m c main_v10 : S4x2048x1024.Idx → EReal)
      = shapeCast S4x2048x1024 ((dat0 (F := Ideal) (V1 m) c).arrAt 9 cfg0.N : S8192x1024.Idx → EReal) shapeCasts_S8192x1024_S4x2048x1024 := by
  have h : W2 m c (Proc.devRef .tc main_v7_2) = (dat0 (F := Ideal) (V1 m) c).arrAt 9 cfg0.N := W2_arr m c 9
  show StableHlo.after hostOps1 (W2 m c) (Proc.devRef .tc main_v10) = _
  after_results
  rw [h]
  rfl

theorem q3_apply (c : Dev nD) (p : Fin 4) (n : Fin 2048) (e : Fin 1024) :
    rd3 (n0 := 4) (n1 := 2048) (n2 := 1024) (V3 m c main_v8) p n e
      = rd2 (n0 := 8192) (n1 := 1024) ((dat0 (F := Ideal) (V1 m) c).arrAt 7 cfg0.N) (flat p n) e := by
  unfold rd2 rd3
  rw [V3_main_v8]
  exact unflatten_ix _ p n e
theorem k3_apply (c : Dev nD) (p : Fin 4) (n : Fin 2048) (e : Fin 1024) :
    rd3 (n0 := 4) (n1 := 2048) (n2 := 1024) (V3 m c main_v9) p n e
      = rd2 (n0 := 8192) (n1 := 1024) ((dat0 (F := Ideal) (V1 m) c).arrAt 8 cfg0.N) (flat p n) e := by
  unfold rd2 rd3
  rw [V3_main_v9]
  exact unflatten_ix _ p n e
theorem v3_apply (c : Dev nD) (p : Fin 4) (n : Fin 2048) (e : Fin 1024) :
    rd3 (n0 := 4) (n1 := 2048) (n2 := 1024) (V3 m c main_v10) p n e
      = rd2 (n0 := 8192) (n1 := 1024) ((dat0 (F := Ideal) (V1 m) c).arrAt 9 cfg0.N) (flat p n) e := by
  unfold rd2 rd3
  rw [V3_main_v10]
  exact unflatten_ix _ p n e

end Cert.KernelIdeal.FrValue

end
-- ==== Proof.R0Value.lean ====
/-
  What the projection region leaves in its three result arrays, read at an index: row r, column e of q is
  (Σ_d x2[r, d] · Wq[d, e] + bq[0, e]) · (1/32), and k and v likewise without the scale, where x2, the weights and the
  bias rows are the arrays the region finds at its entry.

  Three steps. The body's arithmetic at one index of a block: the format changes are the identity on extended reals,
  the block product into the zero accumulator is the contraction of a row with a column, the broadcast bias row reads
  its column, and the scale's word denotes 1/32. Then what each grid point writes back: block t of x is rows
  512·t … 512·t + 511 of x, the weights and bias rows are read whole at every point, so point t's block of an output
  is block t of one function of the entry arrays. Last, the 16 blocks cover the 8192 rows (row r lies in block r / 512)
  and every point writes its block back, so the array ends holding that function.
-/
import proofs.«402078_j38448547233995_3_alg».proof.Proof.R0
import proofs.«402078_j38448547233995_3_alg».proof.Proof.SpecT
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrValue

open Cert.KernelIdeal Cert.KernelIdeal.Gen Cert.KernelIdeal.Fr
open Idealize.ShloMosaic Idealize.ShloMosaic.TcCoe Idealize.SL.Sem
open Idealize.ShloMosaic.Pipeline (Dat)
open Cert.Attn (rd2 rd3 s32)

/-- The scale constant of the q block: the word 0x3D000000 denotes 1/32. -/
theorem ofBits_scale : Ideal.ofBits .f32 0x3D000000#32 = s32 := by
  simp [Ideal.ofBits, Ideal.ieee, s32, -EReal.coe_mul]; norm_num

/-! ## The block product read at an index -/

theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product into the zero accumulator, at row p and column e: the contraction of row p of the left block with
    column e of the right. -/
theorem matmul_ix (a : FVec Ideal S512x1024 .bf16) (b : FVec Ideal S1024x1024 .bf16) (p : Fin 512) (e : Fin 1024) :
    matmul dot_S512x1024_S1024x1024_S512x1024_1_0_0_1_n_n none a b (constant (F := Ideal) S512x1024 .f32 0x00000000#32) (ValueIdx.ix2 p e)
      = ∑ d : Fin 1024, a (ValueIdx.ix2 p d) * b (ValueIdx.ix2 d e) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ValueIdx.ix2 p e) ((ValueIdx.contrEquiv1 dot_S512x1024_S1024x1024_S512x1024_1_0_0_1_n_n 1024 rfl rfl).symm k) = ValueIdx.ix2 p k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx (ValueIdx.ix2 p e) ((ValueIdx.contrEquiv1 dot_S512x1024_S1024x1024_S512x1024_1_0_0_1_n_n 1024 rfl rfl).symm k) = ValueIdx.ix2 k e := funext fun a => Fin.ext (by
    match a with
    | ⟨0, _⟩ => exact (rhs_dot_0 _ _).trans hk
    | ⟨1, _⟩ => exact rhs_dot_1 _ _)
  rw [el, er]

/-- The bias row broadcast over the 512 rows, read at row p and column e, is the row at column e. -/
theorem bias_ix (b : FVec Ideal S1x1024 .f32) (p : Fin 512) (e : Fin 1024) :
    broadcastTo S512x1024 b broadcasts_S1x1024_S512x1024 (ValueIdx.ix2 p e) = b (ValueIdx.ix2 0 e) := by
  refine broadcastTo_apply b broadcasts_S1x1024_S512x1024 (ValueIdx.ix2 p e) (ValueIdx.ix2 0 e) fun a => ?_
  match a with
  | ⟨0, _⟩ => rfl
  | ⟨1, _⟩ => rfl

/-! ## The payloads read at an index -/

/-- The q block at row p, column e: the contraction of x's row with the weight's column, plus the bias, times 1/32. -/
theorem pay2_ix (x0 : Vec Ideal S512x1024 .f32) (x1 : Vec Ideal S1024x1024 .bf16) (x4 : Vec Ideal S1x1024 .f32) (p : Fin 512) (e : Fin 1024) :
    k0_pay2 (F := Ideal) x0 x1 x4 (ValueIdx.ix2 p e)
      = ((∑ d : Fin 1024, x0 (ValueIdx.ix2 p d) * x1 (ValueIdx.ix2 d e)) + x4 (ValueIdx.ix2 0 e)) * s32 := by
  unfold k0_pay2 k0_pay1
  simp only [shapeCast_self]
  rw [ValueIdx.truncf_apply, ValueIdx.mulf_apply, ValueIdx.addf_apply, matmul_ix, bias_ix, ValueIdx.broadcast_apply]
  show (_ + _) * Ideal.ofBits .f32 0x3D000000#32 = _
  rw [ofBits_scale]
  rfl

/-- The k block at row p, column e. -/
theorem pay3_ix (x0 : Vec Ideal S512x1024 .f32) (x2 : Vec Ideal S1024x1024 .bf16) (x5 : Vec Ideal S1x1024 .f32) (p : Fin 512) (e : Fin 1024) :
    k0_pay3 (F := Ideal) x0 x2 x5 (ValueIdx.ix2 p e)
      = (∑ d : Fin 1024, x0 (ValueIdx.ix2 p d) * x2 (ValueIdx.ix2 d e)) + x5 (ValueIdx.ix2 0 e) := by
  unfold k0_pay3 k0_pay1
  simp only [shapeCast_self]
  rw [ValueIdx.truncf_apply, ValueIdx.addf_apply, matmul_ix, bias_ix]
  rfl

/-- The v block at row p, column e. -/
theorem pay4_ix (x0 : Vec Ideal S512x1024 .f32) (x3 : Vec Ideal S1024x1024 .bf16) (x6 : Vec Ideal S1x1024 .f32) (p : Fin 512) (e : Fin 1024) :
    k0_pay4 (F := Ideal) x0 x3 x6 (ValueIdx.ix2 p e)
      = (∑ d : Fin 1024, x0 (ValueIdx.ix2 p d) * x3 (ValueIdx.ix2 d e)) + x6 (ValueIdx.ix2 0 e) := by
  unfold k0_pay4 k0_pay1
  simp only [shapeCast_self]
  rw [ValueIdx.truncf_apply, ValueIdx.addf_apply, matmul_ix, bias_ix]
  rfl

/-! ## From blocks to the arrays -/

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the 16 grid points: block t of x holds rows 512·t … 512·t + 511 and all
    1024 columns, -/
theorem idx_x : ∀ t : Fin cfg0.N, win0_0.index t (0 : Fin 2) = t.val ∧ win0_0.index t (1 : Fin 2) = 0 :=
  (by decide +kernel : ∀ t : Fin grid0.N, _)
/-- the three weights stay at block (0, 0), -/
theorem idx_w : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)
/-- so do the three bias rows, -/
theorem idx_b : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)
/-- and the three outputs move with x. -/
theorem idx_o : ∀ t : Fin cfg0.N, win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem N0 : cfg0.N = 16 := rfl

/-- Row p of block t among the 8192 rows. -/
def brow (t : Fin cfg0.N) (p : Fin 512) : Fin 8192 :=
  ⟨t.val * 512 + p.val, by have := t.isLt; have := p.isLt; have := N0; omega⟩

/-! ### The input blocks as rows of the entry arrays -/

/-- Block t of x at local row p, column d is row 512·t + p of x. -/
theorem xblk_ix (c : Dev nD) (t : Fin cfg0.N) (p : Fin 512) (d : Fin 1024) :
    (iblk0 V c 0 t : Vec Ideal S512x1024 .f32) (ValueIdx.ix2 p d) = rd2 (n0 := 8192) (n1 := 1024) (V c main_v0) (brow t p) d := by
  obtain ⟨e0, e1⟩ := idx_x t
  unfold iblk0
  rw [View.read_apply]
  show V c main_v0 _ = V c main_v0 _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 1024 + 1 * d.val = d.val; rw [e1]; omega

/-- Window 1's block is the whole weight at every point. -/
theorem wblk1_ix (c : Dev nD) (t : Fin cfg0.N) (d e : Fin 1024) :
    (iblk0 V c 1 t : Vec Ideal S1024x1024 .bf16) (ValueIdx.ix2 d e) = rd2 (n0 := 1024) (n1 := 1024) (V c main_v1) d e := by
  obtain ⟨e10, e11, e20, e21, e30, e31⟩ := idx_w t
  unfold iblk0
  rw [View.read_apply]
  show V c main_v1 _ = V c main_v1 _
  congr 1
  funext a
  apply Fin.ext
  match a with
  | ⟨0, _⟩ => show win0_1.index t (0 : Fin 2) * 1024 + 1 * d.val = d.val; rw [e10]; omega
  | ⟨1, _⟩ => show win0_1.index t (1 : Fin 2) * 1024 + 1 * e.val = e.val; rw [e11]; omega

/-- Window 2's block is the whole weight at every point. -/
theorem wblk2_ix (c : Dev nD) (t : Fin cfg0.N) (d e : Fin 1024) :
    (iblk0 V c 2 t : Vec Ideal S1024x1024 .bf16) (ValueIdx.ix2 d e) = rd2 (n0 := 1024) (n1 := 1024) (V c main_v2) d e := by
  obtain ⟨e10, e11, e20, e21, e30, e31⟩ := idx_w t
  unfold iblk0
  rw [View.read_apply]
  show V c main_v2 _ = V c main_v2 _
  congr 1
  funext a
  apply Fin.ext
  match a with
  | ⟨0, _⟩ => show win0_2.index t (0 : Fin 2) * 1024 + 1 * d.val = d.val; rw [e20]; omega
  | ⟨1, _⟩ => show win0_2.index t (1 : Fin 2) * 1024 + 1 * e.val = e.val; rw [e21]; omega

/-- Window 3's block is the whole weight at every point. -/
theorem wblk3_ix (c : Dev nD) (t : Fin cfg0.N) (d e : Fin 1024) :
    (iblk0 V c 3 t : Vec Ideal S1024x1024 .bf16) (ValueIdx.ix2 d e) = rd2 (n0 := 1024) (n1 := 1024) (V c main_v3) d e := by
  obtain ⟨e10, e11, e20, e21, e30, e31⟩ := idx_w t
  unfold iblk0
  rw [View.read_apply]
  show V c main_v3 _ = V c main_v3 _
  congr 1
  funext a
  apply Fin.ext
  match a with
  | ⟨0, _⟩ => show win0_3.index t (0 : Fin 2) * 1024 + 1 * d.val = d.val; rw [e30]; omega
  | ⟨1, _⟩ => show win0_3.index t (1 : Fin 2) * 1024 + 1 * e.val = e.val; rw [e31]; omega

/-- Window 4's block is the whole bias row at every point. -/
theorem bblk4_ix (c : Dev nD) (t : Fin cfg0.N) (e : Fin 1024) :
    (iblk0 V c 4 t : Vec Ideal S1x1024 .f32) (ValueIdx.ix2 (0 : Fin 1) e) = rd2 (n0 := 1) (n1 := 1024) (V c main_v4) 0 e := by
  obtain ⟨e40, e41, e50, e51, e60, e61⟩ := idx_b t
  unfold iblk0
  rw [View.read_apply]
  show V c main_v4 _ = V c main_v4 _
  congr 1
  funext a
  apply Fin.ext
  match a with
  | ⟨0, _⟩ => show win0_4.index t (0 : Fin 2) * 1 + 1 * 0 = 0; rw [e40]
  | ⟨1, _⟩ => show win0_4.index t (1 : Fin 2) * 1024 + 1 * e.val = e.val; rw [e41]; omega

/-- Window 5's block is the whole bias row at every point. -/
theorem bblk5_ix (c : Dev nD) (t : Fin cfg0.N) (e : Fin 1024) :
    (iblk0 V c 5 t : Vec Ideal S1x1024 .f32) (ValueIdx.ix2 (0 : Fin 1) e) = rd2 (n0 := 1) (n1 := 1024) (V c main_v5) 0 e := by
  obtain ⟨e40, e41, e50, e51, e60, e61⟩ := idx_b t
  unfold iblk0
  rw [View.read_apply]
  show V c main_v5 _ = V c main_v5 _
  congr 1
  funext a
  apply Fin.ext
  match a with
  | ⟨0, _⟩ => show win0_5.index t (0 : Fin 2) * 1 + 1 * 0 = 0; rw [e50]
  | ⟨1, _⟩ => show win0_5.index t (1 : Fin 2) * 1024 + 1 * e.val = e.val; rw [e51]; omega

/-- Window 6's block is the whole bias row at every point. -/
theorem bblk6_ix (c : Dev nD) (t : Fin cfg0.N) (e : Fin 1024) :
    (iblk0 V c 6 t : Vec Ideal S1x1024 .f32) (ValueIdx.ix2 (0 : Fin 1) e) = rd2 (n0 := 1) (n1 := 1024) (V c main_v6) 0 e := by
  obtain ⟨e40, e41, e50, e51, e60, e61⟩ := idx_b t
  unfold iblk0
  rw [View.read_apply]
  show V c main_v6 _ = V c main_v6 _
  congr 1
  funext a
  apply Fin.ext
  match a with
  | ⟨0, _⟩ => show win0_6.index t (0 : Fin 2) * 1 + 1 * 0 = 0; rw [e60]
  | ⟨1, _⟩ => show win0_6.index t (1 : Fin 2) * 1024 + 1 * e.val = e.val; rw [e61]; omega

/-! ### q: window 7 -/

/-- The q array as one function of the region's entry arrays: row r, column e. -/
def qF (c : Dev nD) (r : Fin 8192) (e : Fin 1024) : EReal :=
  ((∑ d : Fin 1024, rd2 (n0 := 8192) (n1 := 1024) (V c main_v0) r d * rd2 (n0 := 1024) (n1 := 1024) (V c main_v1) d e)
    + rd2 (n0 := 1) (n1 := 1024) (V c main_v4) 0 e) * s32
def qG (c : Dev nD) : S8192x1024.Idx → EReal := fun i =>
  qF V c ⟨(i 0).val, ValueIdx.idx2_lt0 i⟩ ⟨(i 1).val, ValueIdx.idx2_lt1 i⟩

/-- Where block t's local index y sits in the array. -/
theorem emb7 (t : Fin cfg0.N) (y : ((cfg0.win 7).xblock (cfg0.grid.coords t)).Idx) :
    ((cfg0.win 7).blk t).view.emb y
      = (ValueIdx.ix2 (brow t ⟨(y 0).val, (y 0).isLt⟩) (⟨(y 1).val, (y 1).isLt⟩ : Fin 1024) : S8192x1024.Idx) := by
  obtain ⟨e70, e71, e80, e81, e90, e91⟩ := idx_o t
  funext a
  apply Fin.ext
  match a with
  | ⟨0, _⟩ => show win0_7.index t (0 : Fin 2) * 512 + 1 * (y 0).val = t.val * 512 + (y 0).val; rw [e70]; omega
  | ⟨1, _⟩ => show win0_7.index t (1 : Fin 2) * 1024 + 1 * (y 1).val = (y 1).val; rw [e71]; omega

/-- What point t writes back is block t of that function. -/
theorem flushed7_eq (c : Dev nD) (t : Fin cfg0.N) :
    (dat0 (F := Ideal) V c).flushed 7 t = ((cfg0.win 7).blk t).view.read (Elt Ideal) (qG V c) := by
  show (cfg0.win 7).cut (grid0.coords t) ((dat0 (F := Ideal) V c).after 7 t) = _
  rw [after0_7]
  unfold out0_7
  rw [View.canon_unit_zero hz]
  simp only [View.ld_unit_zero (S := S512x1024) hz, View.ld_unit_zero (S := S1024x1024) hz, View.ld_unit_zero (S := S1x1024) hz]
  funext y
  have hy : (win0_7.xinj (grid0.coords t) y : S512x1024.Idx)
      = ValueIdx.ix2 (⟨(y 0).val, (y 0).isLt⟩ : Fin 512) (⟨(y 1).val, (y 1).isLt⟩ : Fin 1024) :=
    funext fun a => match a with | ⟨0, _⟩ => rfl | ⟨1, _⟩ => rfl
  show k0_pay2 (F := Ideal) (iblk0 V c 0 t) (iblk0 V c 1 t) (iblk0 V c 4 t) (win0_7.xinj (grid0.coords t) y)
    = qG V c (((cfg0.win 7).blk t).view.emb y)
  rw [hy, pay2_ix, emb7]
  simp only [xblk_ix, wblk1_ix, bblk4_ix]
  rfl

/-- An index of the array is in point t's block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v7_0).slice (win0_7.rect t)).set ↔ _
  rw [View.set_slice_whole, Rect.mem_set_unit]
  exact Iff.rfl

/-- Row r lies in the block of point r / 512, and every point writes its block back. -/
theorem cover7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, by have := N0; omega⟩, rfl⟩
  obtain ⟨e70, e71, e80, e81, e90, e91⟩ := idx_o t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; rw [e70, ht]; omega
  | ⟨1, _⟩ => show win0_7.index t (1 : Fin 2) * 1024 ≤ (i 1).val ∧ (i 1).val < win0_7.index t (1 : Fin 2) * 1024 + 1024; rw [e71]; omega

/-- The array after the 16 write-backs is that function. -/
theorem final7 (c : Dev nD) : (dat0 (F := Ideal) V c).arrAt 7 cfg0.N = qG V c :=
  (dat0 (F := Ideal) V c).arrAt_eq_of_cover 7 (qG V c) (fun t _ => flushed7_eq V c t) cover7

/-! ### k: window 8 -/

/-- The k array as one function of the region's entry arrays: row r, column e. -/
def kF (c : Dev nD) (r : Fin 8192) (e : Fin 1024) : EReal :=
  (∑ d : Fin 1024, rd2 (n0 := 8192) (n1 := 1024) (V c main_v0) r d * rd2 (n0 := 1024) (n1 := 1024) (V c main_v2) d e)
    + rd2 (n0 := 1) (n1 := 1024) (V c main_v5) 0 e
def kG (c : Dev nD) : S8192x1024.Idx → EReal := fun i =>
  kF V c ⟨(i 0).val, ValueIdx.idx2_lt0 i⟩ ⟨(i 1).val, ValueIdx.idx2_lt1 i⟩

/-- Where block t's local index y sits in the array. -/
theorem emb8 (t : Fin cfg0.N) (y : ((cfg0.win 8).xblock (cfg0.grid.coords t)).Idx) :
    ((cfg0.win 8).blk t).view.emb y
      = (ValueIdx.ix2 (brow t ⟨(y 0).val, (y 0).isLt⟩) (⟨(y 1).val, (y 1).isLt⟩ : Fin 1024) : S8192x1024.Idx) := by
  obtain ⟨e70, e71, e80, e81, e90, e91⟩ := idx_o t
  funext a
  apply Fin.ext
  match a with
  | ⟨0, _⟩ => show win0_8.index t (0 : Fin 2) * 512 + 1 * (y 0).val = t.val * 512 + (y 0).val; rw [e80]; omega
  | ⟨1, _⟩ => show win0_8.index t (1 : Fin 2) * 1024 + 1 * (y 1).val = (y 1).val; rw [e81]; omega

/-- What point t writes back is block t of that function. -/
theorem flushed8_eq (c : Dev nD) (t : Fin cfg0.N) :
    (dat0 (F := Ideal) V c).flushed 8 t = ((cfg0.win 8).blk t).view.read (Elt Ideal) (kG V c) := by
  show (cfg0.win 8).cut (grid0.coords t) ((dat0 (F := Ideal) V c).after 8 t) = _
  rw [after0_8]
  unfold out0_8
  rw [View.canon_unit_zero hz]
  simp only [View.ld_unit_zero (S := S512x1024) hz, View.ld_unit_zero (S := S1024x1024) hz, View.ld_unit_zero (S := S1x1024) hz]
  funext y
  have hy : (win0_8.xinj (grid0.coords t) y : S512x1024.Idx)
      = ValueIdx.ix2 (⟨(y 0).val, (y 0).isLt⟩ : Fin 512) (⟨(y 1).val, (y 1).isLt⟩ : Fin 1024) :=
    funext fun a => match a with | ⟨0, _⟩ => rfl | ⟨1, _⟩ => rfl
  show k0_pay3 (F := Ideal) (iblk0 V c 0 t) (iblk0 V c 2 t) (iblk0 V c 5 t) (win0_8.xinj (grid0.coords t) y)
    = kG V c (((cfg0.win 8).blk t).view.emb y)
  rw [hy, pay3_ix, emb8]
  simp only [xblk_ix, wblk2_ix, bblk5_ix]
  rfl

/-- An index of the array is in point t's block iff each coordinate is in the block's range on its axis. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v7_1).slice (win0_8.rect t)).set ↔ _
  rw [View.set_slice_whole, Rect.mem_set_unit]
  exact Iff.rfl

/-- Row r lies in the block of point r / 512, and every point writes its block back. -/
theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, by have := N0; omega⟩, rfl⟩
  obtain ⟨e70, e71, e80, e81, e90, e91⟩ := idx_o t
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; rw [e80, ht]; omega
  | ⟨1, _⟩ => show win0_8.index t (1 : Fin 2) * 1024 ≤ (i 1).val ∧ (i 1).val < win0_8.index t (1 : Fin 2) * 1024 + 1024; rw [e81]; omega

/-- The array after the 16 write-backs is that function. -/
theorem final8 (c : Dev nD) : (dat0 (F := Ideal) V c).arrAt 8 cfg0.N = kG V c :=
  (dat0 (F := Ideal) V c).arrAt_eq_of_cover 8 (kG V c) (fun t _ => flushed8_eq V c t) cover8

/-! ### v: window 9 -/

/-- The v array as one function of the region's entry arrays: row r, column e. -/
def vF (c : Dev nD) (r : Fin 8192) (e : Fin 1024) : EReal :=
  (∑ d : Fin 1024, rd2 (n0 := 8192) (n1 := 1024) (V c main_v0) r d * rd2 (n0 := 1024) (n1 := 1024) (V c main_v3) d e)
    + rd2 (n0 := 1) (n1 := 1024) (V c main_v6) 0 e
def vG (c : Dev nD) : S8192x1024.Idx → EReal := fun i =>
  vF V c ⟨(i 0).val, ValueIdx.idx2_lt0 i⟩ ⟨(i 1).val, ValueIdx.idx2_lt1 i⟩

/-- Where block t's local index y sits in the array. -/
theorem emb9 (t : Fin cfg0.N) (y : ((cfg0.win 9).xblock (cfg0.grid.coords t)).Idx) :
    ((cfg0.win 9).blk t).view.emb y
      = (ValueIdx.ix2 (brow t ⟨(y 0).val, (y 0).isLt⟩) (⟨(y 1).val, (y 1).isLt⟩ : Fin 1024) : S8192x1024.Idx) := by
  obtain ⟨e70, e71, e80, e81, e90, e91⟩ := idx_o t
  funext a
  apply Fin.ext
  match a with
  | ⟨0, _⟩ => show win0_9.index t (0 : Fin 2) * 512 + 1 * (y 0).val = t.val * 512 + (y 0).val; rw [e90]; omega
  | ⟨1, _⟩ => show win0_9.index t (1 : Fin 2) * 1024 + 1 * (y 1).val = (y 1).val; rw [e91]; omega

/-- What point t writes back is block t of that function. -/
theorem flushed9_eq (c : Dev nD) (t : Fin cfg0.N) :
    (dat0 (F := Ideal) V c).flushed 9 t = ((cfg0.win 9).blk t).view.read (Elt Ideal) (vG V c) := by
  show (cfg0.win 9).cut (grid0.coords t) ((dat0 (F := Ideal) V c).after 9 t) = _
  rw [after0_9]
  unfold out0_9
  rw [View.canon_unit_zero hz]
  simp only [View.ld_unit_zero (S := S512x1024) hz, View.ld_unit_zero (S := S1024x1024) hz, View.ld_unit_zero (S := S1x1024) hz]
  funext y
  have hy : (win0_9.xinj (grid0.coords t) y : S512x1024.Idx)
      = ValueIdx.ix2 (⟨(y 0).val, (y 0).isLt⟩ : Fin 512) (⟨(y 1).val, (y 1).isLt⟩ : Fin 1024) :=
    funext fun a => match a with | ⟨0, _⟩ => rfl | ⟨1, _⟩ => rfl
  show k0_pay4 (F := Ideal) (iblk0 V c 0 t) (iblk0 V c 3 t) (iblk0 V c 6 t) (win0_9.xinj (grid0.coords t) y)
    = vG V c (((cfg0.win 9).blk t).view.emb y)
  rw [hy, pay4_ix, emb9]
  simp only [xblk_ix, wblk3_ix, bblk6_ix]
  rfl

/-- An index of the array is in point t's block iff each coordinate is in the block's range on its axis. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v7_2).slice (win0_9.rect t)).set ↔ _
  rw [View.set_slice_whole, Rect.mem_set_unit]
  exact Iff.rfl

/-- Row r lies in the block of point r / 512, and every point writes its block back. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ : ∃ t : Fin cfg0.N, t.val = (i 0).val / 512 := ⟨⟨(i 0).val / 512, by have := N0; omega⟩, rfl⟩
  obtain ⟨e70, e71, e80, e81, e90, e91⟩ := idx_o t
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; rw [e90, ht]; omega
  | ⟨1, _⟩ => show win0_9.index t (1 : Fin 2) * 1024 ≤ (i 1).val ∧ (i 1).val < win0_9.index t (1 : Fin 2) * 1024 + 1024; rw [e91]; omega

/-- The array after the 16 write-backs is that function. -/
theorem final9 (c : Dev nD) : (dat0 (F := Ideal) V c).arrAt 9 cfg0.N = vG V c :=
  (dat0 (F := Ideal) V c).arrAt_eq_of_cover 9 (vG V c) (fun t _ => flushed9_eq V c t) cover9

/-! ## The three results -/

/-- q after the region: the scaled projection of the entry arrays. -/
theorem q_apply (c : Dev nD) (r : Fin 8192) (e : Fin 1024) :
    rd2 (n0 := 8192) (n1 := 1024) ((dat0 (F := Ideal) V c).arrAt 7 cfg0.N) r e
      = ((∑ d : Fin 1024, rd2 (n0 := 8192) (n1 := 1024) (V c main_v0) r d * rd2 (n0 := 1024) (n1 := 1024) (V c main_v1) d e)
          + rd2 (n0 := 1) (n1 := 1024) (V c main_v4) 0 e) * s32 := by
  rw [final7]
  rfl

/-- k after the region. -/
theorem k_apply (c : Dev nD) (r : Fin 8192) (e : Fin 1024) :
    rd2 (n0 := 8192) (n1 := 1024) ((dat0 (F := Ideal) V c).arrAt 8 cfg0.N) r e
      = (∑ d : Fin 1024, rd2 (n0 := 8192) (n1 := 1024) (V c main_v0) r d * rd2 (n0 := 1024) (n1 := 1024) (V c main_v2) d e)
          + rd2 (n0 := 1) (n1 := 1024) (V c main_v5) 0 e := by
  rw [final8]
  rfl

/-- v after the region. -/
theorem v_apply (c : Dev nD) (r : Fin 8192) (e : Fin 1024) :
    rd2 (n0 := 8192) (n1 := 1024) ((dat0 (F := Ideal) V c).arrAt 9 cfg0.N) r e
      = (∑ d : Fin 1024, rd2 (n0 := 8192) (n1 := 1024) (V c main_v0) r d * rd2 (n0 := 1024) (n1 := 1024) (V c main_v3) d e)
          + rd2 (n0 := 1) (n1 := 1024) (V c main_v6) 0 e := by
  rw [final9]
  rfl

end Cert.KernelIdeal.FrValue

end
-- ==== Proof.R1Block.lean ====
/-
  One query tile of the attention region as a pure function of the blocks the body loads: the running maximum, sum
  and numerator after a key tile from those before it, the quotient, and their composition over the two key tiles
  from the reset values.
-/
import proofs.«402078_j38448547233995_3_alg».proof.Proof.Gen.KernelIdeal.Skeleton
import Idealize.ShloMosaic.Lib.ValueIdx

noncomputable section

namespace Cert.KernelIdeal.Fr

open Cert.KernelIdeal Cert.KernelIdeal.Gen
open Idealize.ShloMosaic

variable {F : FTy → Type} [FloatOps F]

/-- The running maximum after a key tile: the larger of the one before and the tile's row maxima. -/
def mNext (xq xk : Vec F S1x1024x1024 .bf16) (ms : Vec F S1024x1 .f32) : Vec F S1024x1 .f32 := k1_pay2 (k1_pay8 xq xk ms)
/-- The running sum after a key tile: the one before rescaled to the new maximum, plus the tile's exponentials. -/
def lNext (xq xk : Vec F S1x1024x1024 .bf16) (ms ls : Vec F S1024x1 .f32) : Vec F S1024x1 .f32 := k1_pay11 xq xk ms ms ls
/-- The running numerator after a key tile: the one before rescaled, plus the tile's exponentials against its v block. -/
def accNext (xq xk xv : Vec F S1x1024x1024 .bf16) (ms : Vec F S1024x1 .f32) (accs : Vec F S1024x1024 .f32) : Vec F S1024x1024 .f32 :=
  k1_pay1 (k1_pay9 xq xk ms ms) (k1_pay12 xq xk xv ms) accs
/-- The output block: the numerator over the sum. -/
def outOf (acc : Vec F S1024x1024 .f32) (l : Vec F S1024x1 .f32) : Vec F S1x1024x1024 .f32 := k1_pay3 acc l
/-- The reset values: -∞, 0, 0. -/
def mInit : Vec F S1024x1 .f32 := k1_pay4
def lInit : Vec F S1024x1 .f32 := k1_pay5
def accInit : Vec F S1024x1024 .f32 := k1_pay6

/-- Tile t of batch p of a [4, 2048, 1024] array, as a [1, 1024, 1024] block: rows t·1024 … t·1024 + 1023. -/
def blk3 (a : Vec F S4x2048x1024 .bf16) (p : Fin 4) (t : Fin 2) : Vec F S1x1024x1024 .bf16 :=
  fun y => a (ValueIdx.ix3 p (⟨t.val * 1024 + (y 1).val, by have h1 : (y 1).val < 1024 := (y 1).isLt; have := t.isLt; omega⟩ : Fin 2048)
    (⟨(y 2).val, (y 2).isLt⟩ : Fin 1024))

/-- The output block of a query tile from its q block and the two key tiles' k and v blocks. -/
def attBlock (xq xk0 xv0 xk1 xv1 : Vec F S1x1024x1024 .bf16) : Vec F S1x1024x1024 .f32 :=
  outOf (accNext xq xk1 xv1 (mNext xq xk0 mInit) (accNext xq xk0 xv0 mInit accInit))
    (lNext xq xk1 (mNext xq xk0 mInit) (lNext xq xk0 mInit lInit))

end Cert.KernelIdeal.Fr

end
-- ==== Proof.R1Value.lean ====
/-
  What the attention region leaves in its result array, read at an index: row i of query tile t of batch p is the
  output block `attBlock` of the q block of that tile and the k and v blocks of the two key tiles, all cut out of the
  arrays the region finds at its entry.
-/
import proofs.«402078_j38448547233995_3_alg».proof.Proof.R1
import proofs.«402078_j38448547233995_3_alg».proof.Proof.R1Block
import proofs.«402078_j38448547233995_3_alg».proof.Proof.Spec
import Idealize.ShloMosaic.Lib.Pipeline.Value
import Idealize.ShloMosaic.Lib.ValueIdx

set_option maxRecDepth 16384

noncomputable section

namespace Cert.KernelIdeal.FrValue

open Cert.KernelIdeal Cert.KernelIdeal.Gen Cert.KernelIdeal.Fr
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace Att

/-! ### What each case of the body leaves, as a term of the loaded blocks -/

section Pieces
variable {F : FTy → Type} [FloatOps F]

/-- The zero offsets of a whole-buffer rectangle, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A first-key-tile point leaves in the running maximum the update from the reset value -∞. -/
theorem sA0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) :
    sout1_A_0 c i arg3 harg3 arg4 harg4 arg5 harg5 arg6 harg6 arg7 harg7 arg8 harg8 arg9 harg9 hc0 hc1 x0 x1 x2 = mNext x0 x1 mInit := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1) hz2]
  simp only [View.readAt_eq_ld, harg3.read_unread, harg4.read_unread, harg5.read_unread, View.ld_unit_zero (S := S1x1024x1024) hz3, View.readCov_unit_zero (S := S1024x1) _ hz2, View.readCov_unit_zero (S := S1024x1024) _ hz2]
  rfl

/-- A first-key-tile point leaves in the running sum the update from the reset values. -/
theorem sA1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) :
    sout1_A_1 c i arg3 harg3 arg4 harg4 arg5 harg5 arg6 harg6 arg7 harg7 arg8 harg8 arg9 harg9 hc0 hc1 x0 x1 x2 = lNext x0 x1 mInit lInit := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1) hz2]
  simp only [View.readAt_eq_ld, harg3.read_unread, harg4.read_unread, harg5.read_unread, View.ld_unit_zero (S := S1x1024x1024) hz3, View.readCov_unit_zero (S := S1024x1) _ hz2, View.readCov_unit_zero (S := S1024x1024) _ hz2]
  rfl

/-- A first-key-tile point leaves in the running numerator the update from the reset values. -/
theorem sA2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 x1 x2 : Vec F S1x1024x1024 .bf16) :
    sout1_A_2 c i arg3 harg3 arg4 harg4 arg5 harg5 arg6 harg6 arg7 harg7 arg8 harg8 arg9 harg9 hc0 hc1 x0 x1 x2 = accNext x0 x1 x2 mInit accInit := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1024) hz2]
  simp only [View.readAt_eq_ld, harg3.read_unread, harg4.read_unread, harg5.read_unread, View.ld_unit_zero (S := S1x1024x1024) hz3, View.readCov_unit_zero (S := S1024x1) _ hz2, View.readCov_unit_zero (S := S1024x1024) _ hz2]
  rfl

/-- A last-key-tile point writes the quotient of the updated numerator by the updated sum, both from what the scratch held. -/
theorem oB3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) :
    out1_B_3 c i arg3 harg3 arg4 harg4 arg5 harg5 arg6 harg6 arg7 harg7 arg8 harg8 arg9 harg9 hc0 hc1 x0 x1 x2 xs0 xs1 xs2 = outOf (accNext x0 x1 x2 xs0 xs2) (lNext x0 x1 xs0 xs1) := by
  unfold out1_B_3
  rw [View.read_writes_eq_canon _ _ _ (cover1_B_3 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1x1024x1024) hz3]
  simp only [View.readAt_eq_ld, harg3.read_unread, harg4.read_unread, harg5.read_unread, harg7.read_unread, harg8.read_unread, harg9.read_unread, View.ld_unit_zero (S := S1x1024x1024) hz3, View.ld_unit_zero (S := S1024x1) hz2, View.ld_unit_zero (S := S1024x1024) hz2, View.readCov_unit_zero (S := S1024x1) _ hz2, View.readCov_unit_zero (S := S1024x1024) _ hz2]
  rfl

/-- A last-key-tile point leaves in the running maximum the update from what it held. -/
theorem sB0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) :
    sout1_B_0 c i arg3 harg3 arg4 harg4 arg5 harg5 arg6 harg6 arg7 harg7 arg8 harg8 arg9 harg9 hc0 hc1 x0 x1 x2 xs0 xs1 xs2 = mNext x0 x1 xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1024x1) hz2]
  simp only [View.readAt_eq_ld, harg3.read_unread, harg4.read_unread, harg5.read_unread, harg7.read_unread, harg8.read_unread, harg9.read_unread, View.ld_unit_zero (S := S1x1024x1024) hz3, View.ld_unit_zero (S := S1024x1) hz2, View.ld_unit_zero (S := S1024x1024) hz2, View.readCov_unit_zero (S := S1024x1) _ hz2, View.readCov_unit_zero (S := S1024x1024) _ hz2]
  rfl

/-- A last-key-tile point leaves in the running sum the update from what it held. -/
theorem sB1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) :
    sout1_B_1 c i arg3 harg3 arg4 harg4 arg5 harg5 arg6 harg6 arg7 harg7 arg8 harg8 arg9 harg9 hc0 hc1 x0 x1 x2 xs0 xs1 xs2 = lNext x0 x1 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1024x1) hz2]
  simp only [View.readAt_eq_ld, harg3.read_unread, harg4.read_unread, harg5.read_unread, harg7.read_unread, harg8.read_unread, harg9.read_unread, View.ld_unit_zero (S := S1x1024x1024) hz3, View.ld_unit_zero (S := S1024x1) hz2, View.ld_unit_zero (S := S1024x1024) hz2, View.readCov_unit_zero (S := S1024x1) _ hz2, View.readCov_unit_zero (S := S1024x1024) _ hz2]
  rfl

/-- A last-key-tile point leaves in the running numerator the update from what it held. -/
theorem sB2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 x1 x2 : Vec F S1x1024x1024 .bf16) (xs0 xs1 : Vec F S1024x1 .f32) (xs2 : Vec F S1024x1024 .f32) :
    sout1_B_2 c i arg3 harg3 arg4 harg4 arg5 harg5 arg6 harg6 arg7 harg7 arg8 harg8 arg9 harg9 hc0 hc1 x0 x1 x2 xs0 xs1 xs2 = accNext x0 x1 x2 xs0 xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero (S := S1024x1024) hz2]
  simp only [View.readAt_eq_ld, harg3.read_unread, harg4.read_unread, harg5.read_unread, harg7.read_unread, harg8.read_unread, harg9.read_unread, View.ld_unit_zero (S := S1x1024x1024) hz3, View.ld_unit_zero (S := S1024x1) hz2, View.ld_unit_zero (S := S1024x1024) hz2, View.readCov_unit_zero (S := S1024x1) _ hz2, View.readCov_unit_zero (S := S1024x1024) _ hz2]
  rfl

/-- The composition over the two key tiles, when the two points' q blocks are one block. -/
theorem att_of (xq xq' xk0 xv0 xk1 xv1 : Vec F S1x1024x1024 .bf16) (h : xq' = xq) :
    outOf (accNext xq xk1 xv1 (mNext xq' xk0 mInit) (accNext xq' xk0 xv0 mInit accInit))
      (lNext xq xk1 (mNext xq' xk0 mInit) (lNext xq' xk0 mInit lInit)) = attBlock xq xk0 xv0 xk1 xv1 := by
  subst h; rfl

/-- The output block depends on the five blocks only. -/
theorem attBlock_congr {a a' b b' c c' d d' e e' : Vec F S1x1024x1024 .bf16} (ha : a = a') (hb : b = b') (hc : c = c')
    (hd : d = d') (he : e = e') : attBlock a b c d e = attBlock a' b' c' d' e' := by
  subst ha hb hc hd he; rfl

end Pieces

/-! ### The grid: sixteen points, batch × query tile × key tile -/

/-- The grid has sixteen points. -/
theorem lt16 (t : Fin cfg1.N) : t.val < 16 := lt_of_lt_of_eq t.isLt (show cfg1.N = 16 from N_1)

/-- Batch, query tile and key tile of a grid point. -/
def pOf (t : Fin cfg1.N) : Fin 4 := ⟨t.val / 4, by have := lt16 t; omega⟩
def qOf (t : Fin cfg1.N) : Fin 2 := ⟨t.val / 2 % 2, by omega⟩
def kOf (t : Fin cfg1.N) : Fin 2 := ⟨t.val % 2, by omega⟩

/-- The windows' block indices over the grid. -/
theorem idx_all : ∀ t : Fin cfg1.N,
    (win1_0.index t (0 : Fin 3) = t.val / 4 ∧ win1_0.index t (1 : Fin 3) = t.val / 2 % 2 ∧ win1_0.index t (2 : Fin 3) = 0)
    ∧ (win1_1.index t (0 : Fin 3) = t.val / 4 ∧ win1_1.index t (1 : Fin 3) = t.val % 2 ∧ win1_1.index t (2 : Fin 3) = 0)
    ∧ (win1_2.index t (0 : Fin 3) = t.val / 4 ∧ win1_2.index t (1 : Fin 3) = t.val % 2 ∧ win1_2.index t (2 : Fin 3) = 0)
    ∧ (win1_3.index t (0 : Fin 3) = t.val / 4 ∧ win1_3.index t (1 : Fin 3) = t.val / 2 % 2 ∧ win1_3.index t (2 : Fin 3) = 0) :=
  (by decide +kernel : ∀ t : Fin grid1.N, _)

/-! ### The scratch after an even point, the output block after an odd point -/

/-- After an even point the scratch holds the first key tile's update from the reset values. -/
theorem scr_even (c : Dev nD) (n : ℕ) (hn : n < cfg1.N) (h0 : n % 2 = 0) :
    (outsAt1 V c n hn).2.1 = mNext (F := Ideal) (iblk1 V c 0 ⟨n, hn⟩) (iblk1 V c 1 ⟨n, hn⟩) mInit
    ∧ (outsAt1 V c n hn).2.2.1 = lNext (F := Ideal) (iblk1 V c 0 ⟨n, hn⟩) (iblk1 V c 1 ⟨n, hn⟩) mInit lInit
    ∧ (outsAt1 V c n hn).2.2.2 = accNext (F := Ideal) (iblk1 V c 0 ⟨n, hn⟩) (iblk1 V c 1 ⟨n, hn⟩) (iblk1 V c 2 ⟨n, hn⟩) mInit accInit := by
  have h1 : ¬n % 2 = 1 := by omega
  have e := outsAt1_A V c ⟨n, hn⟩ h0 h1
  rw [show outsAt1 V c n hn = outsAt1 V c (⟨n, hn⟩ : Fin cfg1.N).val (⟨n, hn⟩ : Fin cfg1.N).isLt from rfl, e]
  dsimp only
  exact ⟨sA0 (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩),
    sA1 (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩),
    sA2 (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) scM1_1 (Memref.isWhole_whole _) scM1_2 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩)⟩

/-- After an odd point the output block is the quotient after the second key tile's update of what the point before left. -/
theorem out_odd (c : Dev nD) (t : Fin cfg1.N) (h1 : t.val % 2 = 1) (hp : t.val - 1 < cfg1.N) :
    (outsAt1 V c t.val t.isLt).1
      = outOf (F := Ideal) (accNext (F := Ideal) (iblk1 V c 0 t) (iblk1 V c 1 t) (iblk1 V c 2 t)
            (mNext (F := Ideal) (iblk1 V c 0 ⟨t.val - 1, hp⟩) (iblk1 V c 1 ⟨t.val - 1, hp⟩) mInit)
            (accNext (F := Ideal) (iblk1 V c 0 ⟨t.val - 1, hp⟩) (iblk1 V c 1 ⟨t.val - 1, hp⟩) (iblk1 V c 2 ⟨t.val - 1, hp⟩) mInit accInit))
          (lNext (F := Ideal) (iblk1 V c 0 t) (iblk1 V c 1 t)
            (mNext (F := Ideal) (iblk1 V c 0 ⟨t.val - 1, hp⟩) (iblk1 V c 1 ⟨t.val - 1, hp⟩) mInit)
            (lNext (F := Ideal) (iblk1 V c 0 ⟨t.val - 1, hp⟩) (iblk1 V c 1 ⟨t.val - 1, hp⟩) mInit lInit)) := by
  have h0 : ¬t.val % 2 = 0 := by omega
  obtain ⟨e0, e1, e2⟩ := scr_even V c (t.val - 1) hp (by omega)
  rw [outsAt1_B V c t h0 h1]
  dsimp only
  refine (oB3 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t)
    (outsAt1 V c (t.val - 1) hp).2.1 (outsAt1 V c (t.val - 1) hp).2.2.1 (outsAt1 V c (t.val - 1) hp).2.2.2).trans ?_
  rw [e0, e1, e2]

/-! ### The windows' blocks as tiles of their arrays -/

/-- The q block at point t is tile t / 2 % 2 of batch t / 4 of q. -/
theorem iblk_q (c : Dev nD) (t : Fin cfg1.N) :
    (iblk1 V c 0 t : Vec Ideal S1x1024x1024 .bf16) = blk3 (F := Ideal) (V c main_v8) (pOf t) (qOf t) := by
  obtain ⟨⟨i0, i1, i2⟩, -, -, -⟩ := idx_all t
  funext y
  show ((cfg1.win 0).blk t).view.read (Elt Ideal) (V c (Pipeline.arrRef spec1 0)) y
    = V c main_v8 (ValueIdx.ix3 (pOf t) (⟨(qOf t).val * 1024 + (y 1).val, _⟩ : Fin 2048) (⟨(y 2).val, (y 2).isLt⟩ : Fin 1024))
  rw [View.read_apply]
  show V c main_v8 _ = V c main_v8 _
  congr 1
  funext a
  apply Fin.ext
  have y0 : (y 0).val < 1 := (y 0).isLt
  match a with
  | ⟨0, _⟩ => show win1_0.index t (0 : Fin 3) * 1 + 1 * (y 0).val = t.val / 4; rw [i0]; omega
  | ⟨1, _⟩ => show win1_0.index t (1 : Fin 3) * 1024 + 1 * (y 1).val = t.val / 2 % 2 * 1024 + (y 1).val; rw [i1]; omega
  | ⟨2, _⟩ => show win1_0.index t (2 : Fin 3) * 1024 + 1 * (y 2).val = (y 2).val; rw [i2]; omega

/-- The k block at point t is tile t % 2 of batch t / 4 of k. -/
theorem iblk_k (c : Dev nD) (t : Fin cfg1.N) :
    (iblk1 V c 1 t : Vec Ideal S1x1024x1024 .bf16) = blk3 (F := Ideal) (V c main_v9) (pOf t) (kOf t) := by
  obtain ⟨-, ⟨i0, i1, i2⟩, -, -⟩ := idx_all t
  funext y
  show ((cfg1.win 1).blk t).view.read (Elt Ideal) (V c (Pipeline.arrRef spec1 1)) y
    = V c main_v9 (ValueIdx.ix3 (pOf t) (⟨(kOf t).val * 1024 + (y 1).val, _⟩ : Fin 2048) (⟨(y 2).val, (y 2).isLt⟩ : Fin 1024))
  rw [View.read_apply]
  show V c main_v9 _ = V c main_v9 _
  congr 1
  funext a
  apply Fin.ext
  have y0 : (y 0).val < 1 := (y 0).isLt
  match a with
  | ⟨0, _⟩ => show win1_1.index t (0 : Fin 3) * 1 + 1 * (y 0).val = t.val / 4; rw [i0]; omega
  | ⟨1, _⟩ => show win1_1.index t (1 : Fin 3) * 1024 + 1 * (y 1).val = t.val % 2 * 1024 + (y 1).val; rw [i1]; omega
  | ⟨2, _⟩ => show win1_1.index t (2 : Fin 3) * 1024 + 1 * (y 2).val = (y 2).val; rw [i2]; omega

/-- The v block at point t is tile t % 2 of batch t / 4 of v. -/
theorem iblk_v (c : Dev nD) (t : Fin cfg1.N) :
    (iblk1 V c 2 t : Vec Ideal S1x1024x1024 .bf16) = blk3 (F := Ideal) (V c main_v10) (pOf t) (kOf t) := by
  obtain ⟨-, -, ⟨i0, i1, i2⟩, -⟩ := idx_all t
  funext y
  show ((cfg1.win 2).blk t).view.read (Elt Ideal) (V c (Pipeline.arrRef spec1 2)) y
    = V c main_v10 (ValueIdx.ix3 (pOf t) (⟨(kOf t).val * 1024 + (y 1).val, _⟩ : Fin 2048) (⟨(y 2).val, (y 2).isLt⟩ : Fin 1024))
  rw [View.read_apply]
  show V c main_v10 _ = V c main_v10 _
  congr 1
  funext a
  apply Fin.ext
  have y0 : (y 0).val < 1 := (y 0).isLt
  match a with
  | ⟨0, _⟩ => show win1_2.index t (0 : Fin 3) * 1 + 1 * (y 0).val = t.val / 4; rw [i0]; omega
  | ⟨1, _⟩ => show win1_2.index t (1 : Fin 3) * 1024 + 1 * (y 1).val = t.val % 2 * 1024 + (y 1).val; rw [i1]; omega
  | ⟨2, _⟩ => show win1_2.index t (2 : Fin 3) * 1024 + 1 * (y 2).val = (y 2).val; rw [i2]; omega

/-! ### The whole result array -/

/-- The attention output of batch p, query tile qt, at row r of the tile and column d. -/
def Gval (c : Dev nD) (p : Fin 4) (qt : Fin 2) (r d : Fin 1024) : Elt Ideal .f32 :=
  attBlock (F := Ideal) (blk3 (V c main_v8) p qt) (blk3 (V c main_v9) p 0) (blk3 (V c main_v10) p 0)
    (blk3 (V c main_v9) p 1) (blk3 (V c main_v10) p 1) (ValueIdx.ix3 (0 : Fin 1) r d)

theorem Gval_congr (c : Dev nD) {p p' : Fin 4} {qt qt' : Fin 2} {r r' d d' : Fin 1024} (hp : p = p') (hq : qt = qt')
    (hr : r = r') (hd : d = d') : Gval V c p qt r d = Gval V c p' qt' r' d' := by
  subst hp hq hr hd; rfl

/-- The result array as one function of its index: row n of batch p lies in tile n / 1024 at row n % 1024. -/
def Garr (c : Dev nD) : S4x2048x1024.Idx → Elt Ideal .f32 := fun idx =>
  Gval V c ⟨(idx 0).val, (idx 0).isLt⟩ ⟨(idx 1).val / 1024, by have h : (idx 1).val < 2048 := (idx 1).isLt; omega⟩
    ⟨(idx 1).val % 1024, Nat.mod_lt _ (by decide)⟩ ⟨(idx 2).val, (idx 2).isLt⟩

/-- The output block after an odd point is the tile's attention output. -/
theorem out_odd_blk (c : Dev nD) (t : Fin cfg1.N) (h1 : t.val % 2 = 1) :
    (outsAt1 V c t.val t.isLt).1
      = attBlock (F := Ideal) (blk3 (V c main_v8) (pOf t) (qOf t)) (blk3 (V c main_v9) (pOf t) 0) (blk3 (V c main_v10) (pOf t) 0)
          (blk3 (V c main_v9) (pOf t) 1) (blk3 (V c main_v10) (pOf t) 1) := by
  have h16 := lt16 t
  have hp : t.val - 1 < cfg1.N := lt_of_le_of_lt (Nat.sub_le _ _) t.isLt
  have ep : pOf ⟨t.val - 1, hp⟩ = pOf t := Fin.ext (by show (t.val - 1) / 4 = t.val / 4; omega)
  have eq : qOf ⟨t.val - 1, hp⟩ = qOf t := Fin.ext (by show (t.val - 1) / 2 % 2 = t.val / 2 % 2; omega)
  have ek0 : kOf ⟨t.val - 1, hp⟩ = 0 := Fin.ext (by show (t.val - 1) % 2 = 0; omega)
  have ek1 : kOf t = 1 := Fin.ext (by show t.val % 2 = 1; omega)
  refine (out_odd V c t h1 hp).trans ?_
  refine (att_of (F := Ideal) (iblk1 V c 0 t) (iblk1 V c 0 ⟨t.val - 1, hp⟩) (iblk1 V c 1 ⟨t.val - 1, hp⟩) (iblk1 V c 2 ⟨t.val - 1, hp⟩)
    (iblk1 V c 1 t) (iblk1 V c 2 t) ?_).trans ?_
  · rw [iblk_q V c t, iblk_q V c ⟨t.val - 1, hp⟩, ep, eq]
  · refine attBlock_congr (F := Ideal) (iblk_q V c t) ?_ ?_ ?_ ?_
    · rw [iblk_k V c ⟨t.val - 1, hp⟩, ep, ek0]
    · rw [iblk_v V c ⟨t.val - 1, hp⟩, ep, ek0]
    · rw [iblk_k V c t, ek1]
    · rw [iblk_v V c t, ek1]

/-! ### Reading the result window's block -/

/-- The write-back moves the whole staging block: no part of it is cut off. -/
theorem cut3 (t : Fin cfg1.N) (X : Vec Ideal S1x1024x1024 .f32) : (cfg1.win 3).cut (grid1.coords t) X = X := rfl

/-- Block t of a whole-array function, read at a block index, is the function at the embedded index. -/
theorem read_blk3 (t : Fin cfg1.N) (G : S4x2048x1024.Idx → Elt Ideal .f32) (j : S1x1024x1024.Idx) :
    ((cfg1.win 3).blk t).view.read (Elt Ideal) G j = G (((cfg1.win 3).blk t).view.emb j) := rfl

/-- The coordinates of a block index of point t in the array: batch t / 4, row (t / 2 % 2) · 1024 + j₁, column j₂. -/
theorem emb3 (t : Fin cfg1.N) (j : S1x1024x1024.Idx) :
    ((((cfg1.win 3).blk t).view.emb j) (0 : Fin 3)).val = t.val / 4
    ∧ ((((cfg1.win 3).blk t).view.emb j) (1 : Fin 3)).val = t.val / 2 % 2 * 1024 + (j 1).val
    ∧ ((((cfg1.win 3).blk t).view.emb j) (2 : Fin 3)).val = (j 2).val := by
  obtain ⟨-, -, -, ⟨i0, i1, i2⟩⟩ := idx_all t
  have j0 : (j 0).val < 1 := (j 0).isLt
  refine ⟨?_, ?_, ?_⟩
  · show win1_3.index t (0 : Fin 3) * 1 + 1 * (j 0).val = t.val / 4; rw [i0]; omega
  · show win1_3.index t (1 : Fin 3) * 1024 + 1 * (j 1).val = t.val / 2 % 2 * 1024 + (j 1).val; rw [i1]; omega
  · show win1_3.index t (2 : Fin 3) * 1024 + 1 * (j 2).val = (j 2).val; rw [i2]; omega

/-- A tile's attention output at a block index. -/
theorem Gval_at (c : Dev nD) (p : Fin 4) (qt : Fin 2) (j : S1x1024x1024.Idx) :
    attBlock (F := Ideal) (blk3 (V c main_v8) p qt) (blk3 (V c main_v9) p 0) (blk3 (V c main_v10) p 0)
        (blk3 (V c main_v9) p 1) (blk3 (V c main_v10) p 1) j
      = Gval V c p qt ⟨(j 1).val, (j 1).isLt⟩ ⟨(j 2).val, (j 2).isLt⟩ := by
  have j0 : (j 0).val < 1 := (j 0).isLt
  have hj : j = ValueIdx.ix3 (0 : Fin 1) (⟨(j 1).val, (j 1).isLt⟩ : Fin 1024) (⟨(j 2).val, (j 2).isLt⟩ : Fin 1024) := by
    funext a
    match a with
    | ⟨0, _⟩ => exact Fin.ext (by show (j 0).val = 0; omega)
    | ⟨1, _⟩ => rfl
    | ⟨2, _⟩ => rfl
  unfold Gval
  exact congrArg (attBlock (F := Ideal) (blk3 (V c main_v8) p qt) (blk3 (V c main_v9) p 0) (blk3 (V c main_v10) p 0)
    (blk3 (V c main_v9) p 1) (blk3 (V c main_v10) p 1)) hj

/-- The whole-array function at an index of point t's block. -/
theorem Garr_emb (c : Dev nD) (t : Fin cfg1.N) (j : S1x1024x1024.Idx) :
    Garr V c (((cfg1.win 3).blk t).view.emb j) = Gval V c (pOf t) (qOf t) ⟨(j 1).val, (j 1).isLt⟩ ⟨(j 2).val, (j 2).isLt⟩ := by
  obtain ⟨c0, c1, c2⟩ := emb3 t j
  have j1 : (j 1).val < 1024 := (j 1).isLt
  unfold Garr
  refine Gval_congr V c (Fin.ext ?_) (Fin.ext ?_) (Fin.ext ?_) (Fin.ext ?_)
  · exact c0
  · show ((((cfg1.win 3).blk t).view.emb j) (1 : Fin 3)).val / 1024 = t.val / 2 % 2; rw [c1]; omega
  · show ((((cfg1.win 3).blk t).view.emb j) (1 : Fin 3)).val % 1024 = (j 1).val; rw [c1]; omega
  · exact c2

/-- What an odd point writes back is its block of the whole-array function. -/
theorem flushed_eq (c : Dev nD) (t : Fin cfg1.N) (hf : (cfg1.win 3).flush t = true) :
    (dat1 (F := Ideal) V c).flushed 3 t = ((cfg1.win 3).blk t).view.read (Elt Ideal) (Garr V c) := by
  have h1 : t.val % 2 = 1 := (flush1_3 t).mp hf
  have e1 : (dat1 (F := Ideal) V c).flushed 3 t = (outsAt1 V c t.val t.isLt).1 :=
    (cut3 t ((dat1 (F := Ideal) V c).after 3 t)).trans (after1_3 V c t)
  refine e1.trans ((out_odd_blk V c t h1).trans ?_)
  funext j
  refine Eq.trans ?_ (read_blk3 t (Garr V c) j).symm
  refine Eq.trans ?_ (Garr_emb V c t j).symm
  exact Gval_at V c (pOf t) (qOf t) j

end Att

/-- The result array after the region, at row i of query tile t of batch p, column e. -/
theorem att_apply (c : Dev nD) (p : Fin 4) (t : Fin 2) (i e : Fin 1024) :
    (dat1 (F := Ideal) V c).arrAt 3 cfg1.N (ValueIdx.ix3 p (Cert.Attn.row t i) e)
      = attBlock (F := Ideal) (blk3 (V c main_v8) p t) (blk3 (V c main_v9) p 0) (blk3 (V c main_v10) p 0)
          (blk3 (V c main_v9) p 1) (blk3 (V c main_v10) p 1) (ValueIdx.ix3 (0 : Fin 1) i e) := by
  have hpl := p.isLt
  have htl := t.isLt
  have hil := i.isLt
  have hN : cfg1.N = 16 := N_1
  -- the odd point of batch p and query tile t
  obtain ⟨T, hT⟩ : ∃ T : Fin cfg1.N, T.val = 4 * p.val + 2 * t.val + 1 := ⟨⟨4 * p.val + 2 * t.val + 1, by omega⟩, rfl⟩
  have hodd : T.val % 2 = 1 := by omega
  have hf : (cfg1.win 3).flush T = true := (flush1_3 T).mpr hodd
  obtain ⟨-, -, -, ⟨i0, i1, i2⟩⟩ := Att.idx_all T
  have hE : ((cfg1.win 3).blk T).view.emb (ValueIdx.ix3 (0 : Fin 1) i e) = ValueIdx.ix3 p (Cert.Attn.row t i) e := by
    funext a
    apply Fin.ext
    match a with
    | ⟨0, _⟩ => show win1_3.index T (0 : Fin 3) * 1 + 1 * 0 = p.val; rw [i0]; omega
    | ⟨1, _⟩ => show win1_3.index T (1 : Fin 3) * 1024 + 1 * i.val = t.val * 1024 + i.val; rw [i1]; omega
    | ⟨2, _⟩ => show win1_3.index T (2 : Fin 3) * 1024 + 1 * e.val = e.val; rw [i2]; omega
  have hmem : ValueIdx.ix3 p (Cert.Attn.row t i) e ∈ ((cfg1.win 3).blk T).view.set := by
    rw [← hE]; exact View.emb_mem_set _ _
  refine ((dat1 (F := Ideal) V c).arrAt_apply_of_mem 3 (Att.Garr V c) (Att.flushed_eq V c) cfg1.N T _ T.isLt hf hmem).trans ?_
  show Att.Gval V c _ _ _ _ = Att.Gval V c p t i e
  refine Att.Gval_congr V c (Fin.ext rfl) (Fin.ext ?_) (Fin.ext ?_) (Fin.ext rfl)
  · show (t.val * 1024 + i.val) / 1024 = t.val; omega
  · show (t.val * 1024 + i.val) % 1024 = i.val; omega

end Cert.KernelIdeal.FrValue

end
-- ==== Proof.SpecB.lean ====
/-
  The two-tile running softmax for ONE query tile, over the tile's own coordinates: q is the 1024 × 1024 query block
  (already scaled), k0 / v0 the first key and value blocks, k1 / v1 the second. `tOut` at query tile t of batch p is
  this at the blocks cut out of q, k, v.
-/
import proofs.«402078_j38448547233995_3_alg».proof.Proof.SpecT

noncomputable section

namespace Cert.Attn

open Idealize.ShloMosaic

abbrev M2 := Fin 1024 → Fin 1024 → EReal

section
variable (q k0 v0 k1 v1 : M2)

/-- Scores against the first and the second key block. -/
def bS0 (i j : Fin 1024) : EReal := ∑ e : Fin 1024, q i e * k0 j e
def bS1 (i j : Fin 1024) : EReal := ∑ e : Fin 1024, q i e * k1 j e
def bM0 (i : Fin 1024) : EReal := fmax fun j => bS0 q k0 i j
def bL0 (i : Fin 1024) : EReal := ∑ j : Fin 1024, Ideal.exp (bS0 q k0 i j - bM0 q k0 i)
def bAcc0 (i e : Fin 1024) : EReal := ∑ j : Fin 1024, Ideal.exp (bS0 q k0 i j - bM0 q k0 i) * v0 j e
def bM1 (i : Fin 1024) : EReal := max (bM0 q k0 i) (fmax fun j => bS1 q k1 i j)
def bA1 (i : Fin 1024) : EReal := Ideal.exp (bM0 q k0 i - bM1 q k0 k1 i)
def bL1 (i : Fin 1024) : EReal := bA1 q k0 k1 i * bL0 q k0 i + ∑ j : Fin 1024, Ideal.exp (bS1 q k1 i j - bM1 q k0 k1 i)
def bAcc1 (i e : Fin 1024) : EReal :=
  bA1 q k0 k1 i * bAcc0 q k0 v0 i e + ∑ j : Fin 1024, Ideal.exp (bS1 q k1 i j - bM1 q k0 k1 i) * v1 j e
def bOut (i e : Fin 1024) : EReal := Ideal.div (bAcc1 q k0 v0 k1 v1 i e) (bL1 q k0 k1 i)

end

/-- The whole-array formula at query tile t of batch p is the one-tile formula at the blocks. -/
theorem tOut_eq_bOut (q k v : T3) (p : Fin 4) (t : Fin 2) (i e : Fin 1024) :
    tOut q k v p t i e
      = bOut (fun i e => q p (row t i) e) (fun j e => k p (row 0 j) e) (fun j e => v p (row 0 j) e)
          (fun j e => k p (row 1 j) e) (fun j e => v p (row 1 j) e) i e := by
  rfl

end Cert.Attn

end
-- ==== Proof.R1BlockValue.lean ====
/-
  One query tile's output block read at an index: entry (i, e) of `attBlock` of the five loaded blocks is the
  two-tile running softmax `Cert.Attn.bOut` of the blocks read at coordinates.

  The pieces, each at explicit coordinates: a score is a row of the q block against a row of the k block; the row
  maximum is the fold of max from -∞ over the tile's 1024 keys; the rescale factor is the exponential of the old
  maximum less the new one; the new sum is the old one rescaled plus the tile's exponentials, the new numerator the
  old one rescaled plus the exponentials against the v block; the output is the numerator over the sum. From the
  reset values -∞, 0, 0 the first tile's rescale factor is exp (-∞) = 0, which leaves the first tile's own sums.
-/
import proofs.«402078_j38448547233995_3_alg».proof.Proof.R1Block
import proofs.«402078_j38448547233995_3_alg».proof.Proof.SpecB
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FrValue

open Cert.KernelIdeal Cert.KernelIdeal.Gen Cert.KernelIdeal.Fr
open Idealize.ShloMosaic
open Cert.Attn (rd3 bOut)

/-- A [1, 1024, 1024] block read at its two live coordinates. -/
abbrev b2 (x : (⟨3, ![1, 1024, 1024]⟩ : Shape).Idx → EReal) : Cert.Attn.M2 := fun i e => rd3 (n0 := 1) (n1 := 1024) (n2 := 1024) x 0 i e

open Cert.Attn (fmax bS0 bS1 bM0 bL0 bAcc0 bM1 bA1 bL1 bAcc1)

/-! ## The constant -∞ -/

/-- The pattern with sign bit set, all-ones exponent and zero fraction denotes -∞. -/
theorem ofBits_neg_inf : Ideal.ofBits .f32 0xFF800000#32 = (⊥ : EReal) := by
  simp [Ideal.ofBits, Ideal.ieee]

/-! ## Columns: [1024] as [1024, 1], and [1024, 1] spread over [1024, 1024] -/

section Layout
variable {α : Type}

/-- A [1024] vector cast to a [1024, 1] column reads, at (i, u), entry i. -/
theorem colCast_apply (v : S1024.Idx → α) (h : S1024.ShapeCasts S1024x1) (i : Fin 1024) (u : Fin 1) :
    shapeCast S1024x1 v h (ValueIdx.ix2 i u) = v (ValueIdx.ix1 i) :=
  shapeCast_apply v h _ _ (by
    have hu : u.val = 0 := by omega
    rw [Shape.rowMajor_val_one, Shape.rowMajor_val_two]
    show i.val = i.val * 1 + u.val
    rw [hu, Nat.mul_one, Nat.add_zero])

/-- A [1024, 1] column broadcast to [1024, 1024] reads, at (i, j), the column's entry (i, 0). -/
theorem colBcast_apply (v : S1024x1.Idx → α) (h : S1024x1.Broadcasts S1024x1024) (i j : Fin 1024) :
    broadcastTo S1024x1024 v h (ValueIdx.ix2 i j) = v (ValueIdx.ix2 i (0 : Fin 1)) := by
  refine broadcastTo_apply v h (ValueIdx.ix2 i j) (ValueIdx.ix2 i (0 : Fin 1)) fun ax => ?_
  match ax with
  | ⟨0, _⟩ =>
    show i.val = if (1024 : Nat) = 1 then 0 else i.val
    rw [if_neg (by decide)]
  | ⟨1, _⟩ =>
    show 0 = if (1 : Nat) = 1 then 0 else j.val
    rw [if_pos rfl]

end Layout

/-- An exponential at an index is the exponential of the element. -/
theorem exp_apply {s : Shape} {φ : FTy} (a : FVec Ideal s φ) (i : s.Idx) :
    Idealize.ShloMosaic.exp a i = Ideal.exp (a i) := rfl

/-! ## Reductions over the keys of a row -/

/-- Row i with key k put back on the reduced axis is (i, k). -/
theorem lift_row (h : S1024x1024.Reduces [1] S1024) (i : Fin 1024) (k : Fin (S1024x1024.size 1)) :
    h.lift (ValueIdx.ix1 i) k = ValueIdx.ix2 i (⟨k.val, k.isLt⟩ : Fin 1024) := by
  funext c; apply Fin.ext
  fin_cases c <;> rfl

/-- The row maximum from -∞. -/
theorem rowMax_apply (src : FVec Ideal S1024x1024 .f32) (h : S1024x1024.Reduces [1] S1024) (hφ : FKind.Formats .f32)
    (hacc : (0xFF800000#32 : BitVec 32) = FKind.maximumf.neutral .f32 hφ) (i : Fin 1024) :
    multiReduction .maximumf [1] S1024 src 0xFF800000#32 h hφ hacc (ValueIdx.ix1 i)
      = fmax fun j : Fin 1024 => src (ValueIdx.ix2 i j) := by
  refine (Ideal.multiReduction_maximumf_single src 0xFF800000#32 h hφ hacc (ValueIdx.ix1 i)).trans ?_
  have hf : (src ∘ h.lift (ValueIdx.ix1 i)) = fun k : Fin 1024 => src (ValueIdx.ix2 i k) :=
    funext fun k => congrArg src (lift_row h i k)
  have hi : FloatOps.ofBits (F := Ideal) .f32 0xFF800000#32 = (⊥ : EReal) := ofBits_neg_inf
  rw [hf, hi]
  rfl

/-- The row sum. -/
theorem rowSum_apply (src : FVec Ideal S1024x1024 .f32) (h : S1024x1024.Reduces [1] S1024) (hφ : FKind.Formats .f32)
    (hacc : (0x00000000#32 : BitVec 32) = FKind.add.neutral .f32 hφ) (i : Fin 1024) :
    multiReduction .add [1] S1024 src 0x00000000#32 h hφ hacc (ValueIdx.ix1 i)
      = ∑ j : Fin 1024, src (ValueIdx.ix2 i j) := by
  refine (Ideal.multiReduction_add_single src 0x00000000#32 h hφ hacc (ValueIdx.ix1 i)).trans ?_
  exact Finset.sum_congr rfl fun k _ => congrArg src (lift_row h i k)

/-! ## The two contractions -/

theorem qk_lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem qk_lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem qk_rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem qk_rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- A score: row i of the q block against row j of the k block. -/
theorem score_apply (xq xk : Vec Ideal S1x1024x1024 .bf16) (i j : Fin 1024) :
    k1_pay7 (F := Ideal) xq xk (ValueIdx.ix2 i j) = bS0 (b2 xq) (b2 xk) i j := by
  unfold Cert.Attn.bS0 k1_pay7
  refine (Ideal.matmul_constant_zero_apply dot_S1024x1024_S1024x1024_S1024x1024_1_1_0_0_n_n none _ _ (ValueIdx.ix2 i j)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ValueIdx.ix2 i j) ((ValueIdx.contrEquiv1 dot_S1024x1024_S1024x1024_S1024x1024_1_1_0_0_n_n 1024 rfl rfl).symm k) = ValueIdx.ix2 i k := funext fun a => Fin.ext (by
    match a with
    | ⟨0, _⟩ => exact qk_lhs_0 _ _
    | ⟨1, _⟩ => exact (qk_lhs_1 _ _).trans hk)
  have er : dot_S1024x1024_S1024x1024_S1024x1024_1_1_0_0_n_n.rhsIdx (ValueIdx.ix2 i j) ((ValueIdx.contrEquiv1 dot_S1024x1024_S1024x1024_S1024x1024_1_1_0_0_n_n 1024 rfl rfl).symm k) = ValueIdx.ix2 j k := funext fun a => Fin.ext (by
    match a with
    | ⟨0, _⟩ => exact qk_rhs_0 _ _
    | ⟨1, _⟩ => exact (qk_rhs_1 _ _).trans hk)
  rw [el, er, ValueIdx.shapeCast_1ab_ab_apply, ValueIdx.shapeCast_1ab_ab_apply]
  rfl

theorem pv_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem pv_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem pv_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem pv_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Weights against a v block: row i of the weights against column e of the block. -/
theorem pv_apply (w : FVec Ideal S1024x1024 .bf16) (xv : Vec Ideal S1x1024x1024 .bf16)
    (h : S1x1024x1024.ShapeCasts S1024x1024) (i e : Fin 1024) :
    FloatOps.matmul (φ₁ := .bf16) (φ₂ := .bf16) dot_S1024x1024_S1024x1024_S1024x1024_1_0_0_1_n_n none w (shapeCast S1024x1024 xv h) (constant (F := Ideal) S1024x1024 .f32 0x00000000#32) (ValueIdx.ix2 i e)
      = ∑ j : Fin 1024, w (ValueIdx.ix2 i j) * b2 xv j e := by
  refine (Ideal.matmul_constant_zero_apply dot_S1024x1024_S1024x1024_S1024x1024_1_0_0_1_n_n none _ _ (ValueIdx.ix2 i e)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ValueIdx.ix2 i e) ((ValueIdx.contrEquiv1 dot_S1024x1024_S1024x1024_S1024x1024_1_0_0_1_n_n 1024 rfl rfl).symm k) = ValueIdx.ix2 i k := funext fun a => Fin.ext (by
    match a with
    | ⟨0, _⟩ => exact pv_lhs_0 _ _
    | ⟨1, _⟩ => exact (pv_lhs_1 _ _).trans hk)
  have er : dot_S1024x1024_S1024x1024_S1024x1024_1_0_0_1_n_n.rhsIdx (ValueIdx.ix2 i e) ((ValueIdx.contrEquiv1 dot_S1024x1024_S1024x1024_S1024x1024_1_0_0_1_n_n 1024 rfl rfl).symm k) = ValueIdx.ix2 k e := funext fun a => Fin.ext (by
    match a with
    | ⟨0, _⟩ => exact (pv_rhs_0 _ _).trans hk
    | ⟨1, _⟩ => exact pv_rhs_1 _ _)
  rw [el, er, ValueIdx.shapeCast_1ab_ab_apply]
  rfl

/-! ## The payloads at coordinates -/

section Payloads
variable (xq xk xv : Vec Ideal S1x1024x1024 .bf16) (ms ms' ls : Vec Ideal S1024x1 .f32)

/-- The new running maximum: the old one against the tile's row maximum. -/
theorem pay8_apply (i : Fin 1024) :
    k1_pay8 (F := Ideal) xq xk ms (ValueIdx.ix2 i (0 : Fin 1))
      = max (ms (ValueIdx.ix2 i (0 : Fin 1))) (fmax fun j => bS0 (b2 xq) (b2 xk) i j) := by
  unfold k1_pay8
  refine (ValueIdx.maximumf_apply _ _ _).trans (congrArg (max (ms (ValueIdx.ix2 i (0 : Fin 1)))) ?_)
  refine (colCast_apply _ _ i 0).trans ?_
  refine (rowMax_apply _ _ _ _ i).trans ?_
  exact congrArg fmax (funext fun j => score_apply xq xk i j)

/-- The rescale factor: the exponential of an old maximum less the new one. -/
theorem pay9_apply (i : Fin 1024) :
    k1_pay9 (F := Ideal) xq xk ms ms' (ValueIdx.ix2 i (0 : Fin 1))
      = Ideal.exp (ms' (ValueIdx.ix2 i (0 : Fin 1)) - k1_pay8 (F := Ideal) xq xk ms (ValueIdx.ix2 i (0 : Fin 1))) := by
  unfold k1_pay9
  simp only [exp_apply, ValueIdx.subf_apply]

/-- The tile's exponentials: of a score less the new maximum of its row. -/
theorem pay10_apply (i j : Fin 1024) :
    k1_pay10 (F := Ideal) xq xk ms (ValueIdx.ix2 i j)
      = Ideal.exp (bS0 (b2 xq) (b2 xk) i j - k1_pay8 (F := Ideal) xq xk ms (ValueIdx.ix2 i (0 : Fin 1))) := by
  unfold k1_pay10
  simp only [exp_apply, ValueIdx.subf_apply, colBcast_apply, score_apply]

/-- The new running sum: the old one rescaled plus the row sum of the tile's exponentials. -/
theorem pay11_apply (i : Fin 1024) :
    k1_pay11 (F := Ideal) xq xk ms ms' ls (ValueIdx.ix2 i (0 : Fin 1))
      = k1_pay9 (F := Ideal) xq xk ms ms' (ValueIdx.ix2 i (0 : Fin 1)) * ls (ValueIdx.ix2 i (0 : Fin 1))
        + ∑ j : Fin 1024, k1_pay10 (F := Ideal) xq xk ms (ValueIdx.ix2 i j) := by
  unfold k1_pay11
  simp only [shapeCast_self, ValueIdx.addf_apply, ValueIdx.mulf_apply, colCast_apply]
  exact congrArg (_ + ·) (rowSum_apply _ _ _ _ i)

/-- The tile's exponentials against its v block. -/
theorem pay12_apply (i e : Fin 1024) :
    k1_pay12 (F := Ideal) xq xk xv ms (ValueIdx.ix2 i e)
      = ∑ j : Fin 1024, k1_pay10 (F := Ideal) xq xk ms (ValueIdx.ix2 i j) * b2 xv j e := by
  unfold k1_pay12
  refine (pv_apply _ xv _ i e).trans ?_
  simp only [ValueIdx.truncf_apply]

/-- The new numerator: the old one rescaled by the row's factor, plus the tile's part. -/
theorem pay1_apply (a : FVec Ideal S1024x1 .f32) (pv : FVec Ideal S1024x1024 .f32) (acc : Vec Ideal S1024x1024 .f32)
    (i e : Fin 1024) :
    k1_pay1 (F := Ideal) a pv acc (ValueIdx.ix2 i e)
      = a (ValueIdx.ix2 i (0 : Fin 1)) * acc (ValueIdx.ix2 i e) + pv (ValueIdx.ix2 i e) := by
  unfold k1_pay1
  simp only [shapeCast_self, ValueIdx.addf_apply, ValueIdx.mulf_apply, colBcast_apply]

/-- A cast to the same shape changes nothing. -/
theorem pay2_eq (v : FVec Ideal S1024x1 .f32) : k1_pay2 (F := Ideal) v = v := by
  unfold k1_pay2
  exact shapeCast_self _ _

/-- The output block: the numerator over the row's sum. -/
theorem pay3_apply (acc : Vec Ideal S1024x1024 .f32) (l : Vec Ideal S1024x1 .f32) (i e : Fin 1024) :
    k1_pay3 (F := Ideal) acc l (ValueIdx.ix3 (0 : Fin 1) i e)
      = Ideal.div (acc (ValueIdx.ix2 i e)) (l (ValueIdx.ix2 i (0 : Fin 1))) := by
  unfold k1_pay3
  simp only [ValueIdx.shapeCast_ab_1ab_apply, ValueIdx.divf_apply, colBcast_apply]

end Payloads

/-! ## One key tile's step, and the reset values -/

section Steps
variable (xq xk xv : Vec Ideal S1x1024x1024 .bf16) (ms ls : Vec Ideal S1024x1 .f32) (accs : Vec Ideal S1024x1024 .f32)

theorem mNext_apply (i : Fin 1024) :
    mNext (F := Ideal) xq xk ms (ValueIdx.ix2 i (0 : Fin 1))
      = max (ms (ValueIdx.ix2 i (0 : Fin 1))) (fmax fun j => bS0 (b2 xq) (b2 xk) i j) := by
  unfold mNext
  rw [pay2_eq, pay8_apply]

theorem lNext_apply (i : Fin 1024) :
    lNext (F := Ideal) xq xk ms ls (ValueIdx.ix2 i (0 : Fin 1))
      = Ideal.exp (ms (ValueIdx.ix2 i (0 : Fin 1)) - mNext (F := Ideal) xq xk ms (ValueIdx.ix2 i (0 : Fin 1)))
          * ls (ValueIdx.ix2 i (0 : Fin 1))
        + ∑ j : Fin 1024, Ideal.exp (bS0 (b2 xq) (b2 xk) i j - mNext (F := Ideal) xq xk ms (ValueIdx.ix2 i (0 : Fin 1))) := by
  unfold lNext mNext
  rw [pay2_eq, pay11_apply, pay9_apply]
  simp only [pay10_apply]

theorem accNext_apply (i e : Fin 1024) :
    accNext (F := Ideal) xq xk xv ms accs (ValueIdx.ix2 i e)
      = Ideal.exp (ms (ValueIdx.ix2 i (0 : Fin 1)) - mNext (F := Ideal) xq xk ms (ValueIdx.ix2 i (0 : Fin 1)))
          * accs (ValueIdx.ix2 i e)
        + ∑ j : Fin 1024, Ideal.exp (bS0 (b2 xq) (b2 xk) i j - mNext (F := Ideal) xq xk ms (ValueIdx.ix2 i (0 : Fin 1)))
            * b2 xv j e := by
  unfold accNext mNext
  rw [pay2_eq, pay1_apply, pay9_apply, pay12_apply]
  simp only [pay10_apply]

theorem outOf_apply (l : Vec Ideal S1024x1 .f32) (i e : Fin 1024) :
    outOf (F := Ideal) accs l (ValueIdx.ix3 (0 : Fin 1) i e)
      = Ideal.div (accs (ValueIdx.ix2 i e)) (l (ValueIdx.ix2 i (0 : Fin 1))) := by
  unfold outOf
  exact pay3_apply accs l i e

/-- The running maximum is reset to -∞. -/
theorem mInit_apply (j : S1024x1.Idx) : mInit (F := Ideal) j = (⊥ : EReal) := by
  unfold mInit k1_pay4
  simp only [shapeCast_self]
  exact ofBits_neg_inf

end Steps

/-! ## The first key tile from the reset values, then the block -/

section Block
variable (xq xk0 xv0 xk1 xv1 : Vec Ideal S1x1024x1024 .bf16)

/-- After the first tile the running maximum is the tile's row maximum. -/
theorem m0_apply (i : Fin 1024) :
    mNext (F := Ideal) xq xk0 mInit (ValueIdx.ix2 i (0 : Fin 1)) = bM0 (b2 xq) (b2 xk0) i := by
  rw [mNext_apply, mInit_apply]
  exact max_eq_right bot_le

/-- After the first tile the running sum is the tile's own: the rescale factor from -∞ is 0. -/
theorem l0_apply (i : Fin 1024) :
    lNext (F := Ideal) xq xk0 mInit lInit (ValueIdx.ix2 i (0 : Fin 1)) = bL0 (b2 xq) (b2 xk0) i := by
  rw [lNext_apply, m0_apply, mInit_apply, EReal.bot_sub, Ideal.exp_bot, zero_mul, zero_add]
  rfl

/-- After the first tile the running numerator is the tile's own. -/
theorem acc0_apply (i e : Fin 1024) :
    accNext (F := Ideal) xq xk0 xv0 mInit accInit (ValueIdx.ix2 i e) = bAcc0 (b2 xq) (b2 xk0) (b2 xv0) i e := by
  rw [accNext_apply, m0_apply, mInit_apply, EReal.bot_sub, Ideal.exp_bot, zero_mul, zero_add]
  rfl

end Block

/-- Entry (i, e) of a query tile's output block. -/
theorem attBlock_apply (xq xk0 xv0 xk1 xv1 : Vec Ideal S1x1024x1024 .bf16) (i e : Fin 1024) :
    attBlock (F := Ideal) xq xk0 xv0 xk1 xv1 (ValueIdx.ix3 (0 : Fin 1) i e)
      = bOut (b2 xq) (b2 xk0) (b2 xv0) (b2 xk1) (b2 xv1) i e := by
  unfold attBlock
  rw [outOf_apply, accNext_apply xq xk1 xv1, lNext_apply xq xk1, mNext_apply xq xk1, acc0_apply, l0_apply, m0_apply]
  rfl

end Cert.KernelIdeal.FrValue

end
-- ==== Proof.KValue.lean ====
/-
  The idealized kernel's result at an index, as a function of the seven argument arrays: at row i of query tile t of
  batch p, column e, the two-tile running softmax `Cert.Attn.kOut` of the arguments read at coordinates. The
  attention region's output block is the block function of the q, k, v it finds; those are the projection region's
  results seen through the reshapes between the regions; and those are the scaled or plain projections of x, the
  weights and the biases seen through the host operations before the first region.
-/
import proofs.«402078_j38448547233995_3_alg».proof.Proof.Glue
import proofs.«402078_j38448547233995_3_alg».proof.Proof.R0Value
import proofs.«402078_j38448547233995_3_alg».proof.Proof.R1Value
import proofs.«402078_j38448547233995_3_alg».proof.Proof.R1BlockValue

set_option maxRecDepth 16384

noncomputable section

namespace Cert.KernelIdeal.FrValue

open Cert.KernelIdeal Cert.KernelIdeal.Gen Cert.KernelIdeal.Fr
open Idealize.ShloMosaic Idealize.ShloMosaic.TcCoe Idealize.SL.Sem
open Cert.Attn

variable (m : (ℓ : Loc nD τ sig) → Buf (Elt Ideal) ℓ)

/-- What the attention region finds in q: the scaled projection of the arguments. -/
theorem q_full (c : Dev nD) (p : Fin 4) (n : Fin 2048) (e : Fin 1024) :
    rd3 (n0 := 4) (n1 := 2048) (n2 := 1024) (V3 m c main_v8) p n e
      = kq (c3 (m ((c.tc : Thread nD τ).loc main_arg0))) (c2 (m ((c.tc : Thread nD τ).loc main_arg1))) (c1 (m ((c.tc : Thread nD τ).loc main_arg4))) p n e := by
  rw [q3_apply, q_apply (V1 m) c (flat p n) e, bq_apply]
  unfold kq proj
  refine congrArg (fun z => (z + c1 (m ((c.tc : Thread nD τ).loc main_arg4)) e) * s32) ?_
  exact Finset.sum_congr rfl fun d _ => by rw [x2_apply, wq_apply]; rfl

/-- What it finds in k, -/
theorem k_full (c : Dev nD) (p : Fin 4) (n : Fin 2048) (e : Fin 1024) :
    rd3 (n0 := 4) (n1 := 2048) (n2 := 1024) (V3 m c main_v9) p n e
      = proj (c3 (m ((c.tc : Thread nD τ).loc main_arg0))) (c2 (m ((c.tc : Thread nD τ).loc main_arg2))) (c1 (m ((c.tc : Thread nD τ).loc main_arg5))) p n e := by
  rw [k3_apply, k_apply (V1 m) c (flat p n) e, bk_apply]
  unfold proj
  refine congrArg (fun z => z + c1 (m ((c.tc : Thread nD τ).loc main_arg5)) e) ?_
  exact Finset.sum_congr rfl fun d _ => by rw [x2_apply, wk_apply]; rfl

/-- and in v. -/
theorem v_full (c : Dev nD) (p : Fin 4) (n : Fin 2048) (e : Fin 1024) :
    rd3 (n0 := 4) (n1 := 2048) (n2 := 1024) (V3 m c main_v10) p n e
      = proj (c3 (m ((c.tc : Thread nD τ).loc main_arg0))) (c2 (m ((c.tc : Thread nD τ).loc main_arg3))) (c1 (m ((c.tc : Thread nD τ).loc main_arg6))) p n e := by
  rw [v3_apply, v_apply (V1 m) c (flat p n) e, bv_apply]
  unfold proj
  refine congrArg (fun z => z + c1 (m ((c.tc : Thread nD τ).loc main_arg6)) e) ?_
  exact Finset.sum_congr rfl fun d _ => by rw [x2_apply, wv_apply]; rfl

/-- A tile cut out of a [4, 2048, 1024] array, read at the tile's coordinates, is the array at the tile's rows. -/
theorem b2_blk3 (a : Vec Ideal S4x2048x1024 .bf16) (p : Fin 4) (t : Fin 2) (i e : Fin 1024) :
    b2 (blk3 (F := Ideal) a p t) i e = rd3 (n0 := 4) (n1 := 2048) (n2 := 1024) a p (row t i) e := rfl

/-- The result array at row i of query tile t of batch p, column e. -/
theorem result_eq_kOut (c : Dev nD) (p : Fin 4) (t : Fin 2) (i e : Fin 1024) :
    (dat1 (F := Ideal) (V3 m) c).arrAt 3 cfg1.N (ValueIdx.ix3 p (row t i) e)
      = kOut (c3 (m ((c.tc : Thread nD τ).loc main_arg0))) (c2 (m ((c.tc : Thread nD τ).loc main_arg1))) (c2 (m ((c.tc : Thread nD τ).loc main_arg2))) (c2 (m ((c.tc : Thread nD τ).loc main_arg3)))
          (c1 (m ((c.tc : Thread nD τ).loc main_arg4))) (c1 (m ((c.tc : Thread nD τ).loc main_arg5))) (c1 (m ((c.tc : Thread nD τ).loc main_arg6))) p t i e := by
  rw [att_apply (V3 m) c p t i e, attBlock_apply, kOut_eq_tOut, tOut_eq_bOut]
  have hq : b2 (blk3 (F := Ideal) (V3 m c main_v8) p t) = fun i e => kq (c3 (m ((c.tc : Thread nD τ).loc main_arg0))) (c2 (m ((c.tc : Thread nD τ).loc main_arg1))) (c1 (m ((c.tc : Thread nD τ).loc main_arg4))) p (row t i) e :=
    funext fun i => funext fun e => (b2_blk3 _ p t i e).trans (q_full m c p (row t i) e)
  have hk : ∀ kv : Fin 2, b2 (blk3 (F := Ideal) (V3 m c main_v9) p kv) = fun j e => proj (c3 (m ((c.tc : Thread nD τ).loc main_arg0))) (c2 (m ((c.tc : Thread nD τ).loc main_arg2))) (c1 (m ((c.tc : Thread nD τ).loc main_arg5))) p (row kv j) e :=
    fun kv => funext fun j => funext fun e => (b2_blk3 _ p kv j e).trans (k_full m c p (row kv j) e)
  have hv : ∀ kv : Fin 2, b2 (blk3 (F := Ideal) (V3 m c main_v10) p kv) = fun j e => proj (c3 (m ((c.tc : Thread nD τ).loc main_arg0))) (c2 (m ((c.tc : Thread nD τ).loc main_arg3))) (c1 (m ((c.tc : Thread nD τ).loc main_arg6))) p (row kv j) e :=
    fun kv => funext fun j => funext fun e => (b2_blk3 _ p kv j e).trans (v_full m c p (row kv j) e)
  rw [hq, hk 0, hk 1, hv 0, hv 1]

end Cert.KernelIdeal.FrValue

end
-- ==== Proof.RefValue.lean ====
/-
  The reference program read at an index: its result at batch p, query row n, column e is the softmax-weighted
  sum `Cert.Attn.rOut` of the argument arrays read at coordinates.

  The stages are read inside-out at explicit coordinates. Each linear layer is a row of x against a column of the
  weight plus the bias; the scale is 1 / sqrt 1024 = 1/32; a score is the contraction of a query row with a key
  row times the scale; the row maximum is the fold of max from -∞ over the 2048 keys (and the later maximum with
  -∞ changes nothing); an exponential is taken of the score minus that maximum; the row sum starts from 0; a
  weight is the exponential over the row sum; the result contracts the weights with v.
-/
import proofs.«402078_j38448547233995_3_alg».proof.Proof.Gen.ReferenceIdeal.Run
import proofs.«402078_j38448547233995_3_alg».proof.Proof.Gen.ReferenceIdeal.Read
import proofs.«402078_j38448547233995_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Cert.Attn

/-! ## The constants -/

/-- The pattern of 1.0 denotes the real 1. -/
theorem ofBits_one : Ideal.ofBits .f32 0x3F800000#32 = ((1 : ℝ) : EReal) := by
  simp [Ideal.ofBits, Ideal.ieee, -EReal.coe_mul]; norm_num

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern with sign bit set, all-ones exponent and zero fraction denotes -∞. -/
theorem ofBits_neg_inf : Ideal.ofBits .f32 0xFF800000#32 = (⊥ : EReal) := by
  simp [Ideal.ofBits, Ideal.ieee]

/-- 32 · 32 = 1024. -/
theorem sqrt_1024 : Real.sqrt 1024 = 32 := by
  rw [show (1024 : ℝ) = 32 ^ 2 by norm_num]
  exact Real.sqrt_sq (by norm_num)

/-- The scale 1.0 / sqrt 1024.0 is 1/32. -/
theorem scale_eq :
    Ideal.div (Ideal.ofBits .f32 0x3F800000#32) (Ideal.sqrt (Ideal.ofBits .f32 0x44800000#32)) = s32 := by
  rw [ofBits_one, ofBits_1024, Ideal.sqrt_coe, if_neg (by norm_num), sqrt_1024, Ideal.div_coe (by norm_num)]
  rw [← EReal.coe_mul, one_mul]
  rfl

/-! ## The linear layers -/

section
variable (x0 : (⟨S4x2048x1024, .f32⟩ : BufTy).Contents (Elt Ideal))
  (x1 x2 x3 : (⟨S1024x1024, .f32⟩ : BufTy).Contents (Elt Ideal)) (x4 x5 x6 : (⟨S1024, .f32⟩ : BufTy).Contents (Elt Ideal))

/-- The contraction's left index at (p, n, e) and d is (p, n, d). -/
theorem lidx_v0 (p : Fin 4) (n : Fin 2048) (e d : Fin 1024) :
    Read.lidx_main_v0 (ValueIdx.ix3 p n e) d = ValueIdx.ix3 p n d :=
  funext fun a => Fin.ext (by match a with | ⟨0, _⟩ => rfl | ⟨1, _⟩ => rfl | ⟨2, _⟩ => rfl)

/-- The contraction's right index at (p, n, e) and d is (d, e). -/
theorem ridx_v0 (p : Fin 4) (n : Fin 2048) (e d : Fin 1024) :
    Read.ridx_main_v0 (ValueIdx.ix3 p n e) d = ValueIdx.ix2 d e :=
  funext fun a => Fin.ext (by match a with | ⟨0, _⟩ => rfl | ⟨1, _⟩ => rfl)

/-- The bias broadcast to (p, n, e) reads the bias at e. -/
theorem bias_idx (p : Fin 4) (n : Fin 2048) (e : Fin 1024) :
    Read.idx_main_v1 (Read.idx_main_v2 (ValueIdx.ix3 p n e)) = ValueIdx.ix1 e :=
  funext fun a => Fin.ext (by match a with | ⟨0, _⟩ => rfl)

/-- The first layer at (p, n, e): row n of batch p against column e, plus the bias. -/
theorem q_apply (p : Fin 4) (n : Fin 2048) (e : Fin 1024) :
    Read.val_main_v3 (F := Ideal) x0 x1 x4 (ValueIdx.ix3 p n e) = proj (c3 x0) (c2 x1) (c1 x4) p n e := by
  rw [Read.val_main_v3_apply, Read.val_main_v0_apply, Read.val_main_v2_apply, Read.val_main_v1_apply]
  simp only [lidx_v0, ridx_v0, bias_idx, Ideal.addf_def]
  rfl

/-- The second and third layers are the first one's operations on other arguments. -/
theorem v7_eq : Read.val_main_v7 (F := Ideal) x0 x2 x5 = Read.val_main_v3 (F := Ideal) x0 x2 x5 := rfl
theorem v11_eq : Read.val_main_v11 (F := Ideal) x0 x3 x6 = Read.val_main_v3 (F := Ideal) x0 x3 x6 := rfl

theorem k_apply (p : Fin 4) (n : Fin 2048) (e : Fin 1024) :
    Read.val_main_v7 (F := Ideal) x0 x2 x5 (ValueIdx.ix3 p n e) = proj (c3 x0) (c2 x2) (c1 x5) p n e := by
  rw [v7_eq, q_apply]

theorem v_apply (p : Fin 4) (n : Fin 2048) (e : Fin 1024) :
    Read.val_main_v11 (F := Ideal) x0 x3 x6 (ValueIdx.ix3 p n e) = proj (c3 x0) (c2 x3) (c1 x6) p n e := by
  rw [v11_eq, q_apply]

end

/-! ## Scores, their row maximum, the exponentials, the row sum and the weights -/

section
variable (x0 : (⟨S4x2048x1024, .f32⟩ : BufTy).Contents (Elt Ideal))
  (x1 x2 x3 : (⟨S1024x1024, .f32⟩ : BufTy).Contents (Elt Ideal)) (x4 x5 x6 : (⟨S1024, .f32⟩ : BufTy).Contents (Elt Ideal))

/-- The score contraction's left index at (p, n, j) and e is (p, n, e). -/
theorem lidx_v14 (p : Fin 4) (n j : Fin 2048) (e : Fin 1024) :
    Read.lidx_main_v14 (ValueIdx.ix3 p n j) e = ValueIdx.ix3 p n e :=
  funext fun a => Fin.ext (by match a with | ⟨0, _⟩ => rfl | ⟨1, _⟩ => rfl | ⟨2, _⟩ => rfl)

/-- The score contraction's right index at (p, n, j) and e is (p, j, e). -/
theorem ridx_v14 (p : Fin 4) (n j : Fin 2048) (e : Fin 1024) :
    Read.ridx_main_v14 (ValueIdx.ix3 p n j) e = ValueIdx.ix3 p j e :=
  funext fun a => Fin.ext (by match a with | ⟨0, _⟩ => rfl | ⟨1, _⟩ => rfl | ⟨2, _⟩ => rfl)

/-- The broadcast scale, at every index, is 1/32. -/
theorem scale_apply (i : S4x2048x2048.Idx) : Read.val_main_v15 (F := Ideal) i = s32 := by
  rw [Read.val_main_v15_apply, Read.val_main_v13_apply, Read.val_main_v12_apply, Read.val_main_cst_apply,
    Read.val_main_cst_0_apply]
  simp only [Ideal.hostDivf_def, Ideal.hostUnary_sqrt_def, Ideal.ofBits_def]
  exact scale_eq

/-- The score of query row n against key row j. -/
theorem score_apply (p : Fin 4) (n j : Fin 2048) :
    Read.val_main_v16 (F := Ideal) x0 x1 x2 x4 x5 (ValueIdx.ix3 p n j)
      = rScore (c3 x0) (c2 x1) (c2 x2) (c1 x4) (c1 x5) p n j := by
  rw [Read.val_main_v16_apply, Read.val_main_v14_apply, scale_apply]
  simp only [lidx_v14, ridx_v14, q_apply, k_apply, Ideal.mulf_def]
  rfl

/-- Row (p, n) with key j put back on the reduced axis is (p, n, j). -/
theorem lift_row (h : S4x2048x2048.Reduces [2] S4x2048) (p : Fin 4) (n : Fin 2048) (k : Fin (S4x2048x2048.size 2)) :
    h.lift (ValueIdx.ix2 p n) k = ValueIdx.ix3 p n (⟨k.val, k.isLt⟩ : Fin 2048) := by
  funext c; apply Fin.ext
  fin_cases c <;> rfl

/-- The max-reduce over the keys, from -∞, is the maximum of the row's scores. -/
theorem reduce_max_apply (p : Fin 4) (n : Fin 2048) :
    Read.val_main_v17 (F := Ideal) x0 x1 x2 x4 x5 (ValueIdx.ix2 p n)
      = rMax (c3 x0) (c2 x1) (c2 x2) (c1 x4) (c1 x5) p n := by
  have h : S4x2048x2048.Reduces [2] S4x2048 := by decide
  unfold Read.val_main_v17
  rw [Host.reduce_eq_fold_single FloatOps.maximumf _ _ reducesTo_S4x2048x2048_S4x2048_d2 h h_S_]
  have hf : (Read.val_main_v16 (F := Ideal) x0 x1 x2 x4 x5 ∘ h.lift (ValueIdx.ix2 p n))
      = fun k : Fin 2048 => rScore (c3 x0) (c2 x1) (c2 x2) (c1 x4) (c1 x5) p n k :=
    funext fun k => (congrArg _ (lift_row h p n k)).trans (score_apply x0 x1 x2 x4 x5 p n _)
  have hi : Read.val_main_cst_1 (F := Ideal) (Shape.Idx.first h_S_) = (⊥ : EReal) := ofBits_neg_inf
  rw [hf, hi]
  rfl

/-- The later maximum with -∞ changes nothing. -/
theorem max_apply (p : Fin 4) (n : Fin 2048) :
    Read.val_main_v19 (F := Ideal) x0 x1 x2 x4 x5 (ValueIdx.ix2 p n)
      = rMax (c3 x0) (c2 x1) (c2 x2) (c1 x4) (c1 x5) p n := by
  rw [Read.val_main_v19_apply, Read.val_main_v18_apply, Read.val_main_cst_2_apply, reduce_max_apply]
  simp only [Ideal.maximumf_def, Ideal.ofBits_def, ofBits_neg_inf]
  exact max_eq_right bot_le

/-- The maximum broadcast to (p, n, j) reads row (p, n). -/
theorem row_idx_v21 (p : Fin 4) (n j : Fin 2048) :
    Read.idx_main_v20 (Read.idx_main_v21 (ValueIdx.ix3 p n j)) = ValueIdx.ix2 p n :=
  funext fun a => Fin.ext (by match a with | ⟨0, _⟩ => rfl | ⟨1, _⟩ => rfl)

/-- The exponential of the score less the row maximum. -/
theorem exp_apply (p : Fin 4) (n j : Fin 2048) :
    Read.val_main_v23 (F := Ideal) x0 x1 x2 x4 x5 (ValueIdx.ix3 p n j)
      = rExp (c3 x0) (c2 x1) (c2 x2) (c1 x4) (c1 x5) p n j := by
  rw [Read.val_main_v23_apply, Read.val_main_v22_apply, Read.val_main_v21_apply, Read.val_main_v20_apply,
    row_idx_v21, max_apply, score_apply]
  simp only [Ideal.hostUnary_exp_def, Ideal.subf_def]
  rfl

/-- The row sum's index at (p, n) and j is (p, n, j). -/
theorem idx_v24 (p : Fin 4) (n j : Fin 2048) :
    Read.idx_main_v24 (ValueIdx.ix2 p n) j = ValueIdx.ix3 p n j :=
  funext fun a => Fin.ext (by match a with | ⟨0, _⟩ => rfl | ⟨1, _⟩ => rfl | ⟨2, _⟩ => rfl)

/-- The row sum of the exponentials, from 0. -/
theorem sum_apply (p : Fin 4) (n : Fin 2048) :
    Read.val_main_v24 (F := Ideal) x0 x1 x2 x4 x5 (ValueIdx.ix2 p n)
      = rSum (c3 x0) (c2 x1) (c2 x2) (c1 x4) (c1 x5) p n := by
  rw [Read.val_main_v24_apply, Read.val_main_cst_3_apply]
  simp only [idx_v24, exp_apply, Ideal.ofBits_def, Ideal.ofBits_zero_f32, zero_add]
  rfl

/-- The row sum broadcast to (p, n, j) reads row (p, n). -/
theorem row_idx_v26 (p : Fin 4) (n j : Fin 2048) :
    Read.idx_main_v25 (Read.idx_main_v26 (ValueIdx.ix3 p n j)) = ValueIdx.ix2 p n :=
  funext fun a => Fin.ext (by match a with | ⟨0, _⟩ => rfl | ⟨1, _⟩ => rfl)

/-- A softmax weight: the exponential over the row sum. -/
theorem weight_apply (p : Fin 4) (n j : Fin 2048) :
    Read.val_main_v27 (F := Ideal) x0 x1 x2 x4 x5 (ValueIdx.ix3 p n j)
      = Ideal.div (rExp (c3 x0) (c2 x1) (c2 x2) (c1 x4) (c1 x5) p n j)
          (rSum (c3 x0) (c2 x1) (c2 x2) (c1 x4) (c1 x5) p n) := by
  rw [Read.val_main_v27_apply, Read.val_main_v26_apply, Read.val_main_v25_apply, row_idx_v26, sum_apply, exp_apply]
  rfl

/-- The last contraction's left index at (p, n, e) and j is (p, n, j). -/
theorem lidx_v28 (p : Fin 4) (n j : Fin 2048) (e : Fin 1024) :
    Read.lidx_main_v28 (ValueIdx.ix3 p n e) j = ValueIdx.ix3 p n j :=
  funext fun a => Fin.ext (by match a with | ⟨0, _⟩ => rfl | ⟨1, _⟩ => rfl | ⟨2, _⟩ => rfl)

/-- The last contraction's right index at (p, n, e) and j is (p, j, e). -/
theorem ridx_v28 (p : Fin 4) (n j : Fin 2048) (e : Fin 1024) :
    Read.ridx_main_v28 (ValueIdx.ix3 p n e) j = ValueIdx.ix3 p j e :=
  funext fun a => Fin.ext (by match a with | ⟨0, _⟩ => rfl | ⟨1, _⟩ => rfl | ⟨2, _⟩ => rfl)

end

/-- The reference's last stage at (p, n, e): softmax over the 2048 keys of the scaled scores, contracted with v. -/
theorem val_out_apply (x0 : (⟨S4x2048x1024, .f32⟩ : BufTy).Contents (Elt Ideal))
    (x1 x2 x3 : (⟨S1024x1024, .f32⟩ : BufTy).Contents (Elt Ideal)) (x4 x5 x6 : (⟨S1024, .f32⟩ : BufTy).Contents (Elt Ideal))
    (p : Fin 4) (n : Fin 2048) (e : Fin 1024) :
    Read.val_main_v28 x0 x1 x2 x3 x4 x5 x6 (ValueIdx.ix3 p n e)
      = rOut (c3 x0) (c2 x1) (c2 x2) (c2 x3) (c1 x4) (c1 x5) (c1 x6) p n e := by
  rw [Read.val_main_v28_apply]
  simp only [lidx_v28, ridx_v28, weight_apply, v_apply]
  rfl

end Cert.ReferenceIdeal.RefValue

end
-- ==== Proof.Softmax.lean ====
/-
  The two-tile running softmax is the softmax: `Cert.Attn.kOut` and `Cert.Attn.rOut` agree at every index when
  every input is a real number.

  With real inputs every intermediate value is a real number: the three projections, the scores (the kernel's
  scale folded into q gives the same score as the reference's scale after the contraction, by distributivity),
  the maxima (a maximum of finitely many reals over a nonempty index set) and the exponentials. Softmax does not
  depend on which real is subtracted before exponentiating, because exp (s - M) = exp (m - M) * exp (s - m) and the
  common factor cancels in the quotient; so the kernel's running maximum need not even be compared with the
  reference's. What remains is that the first tile's terms, rescaled by exp (m0 - m1), are the terms taken against
  m1, and that a sum over the 2048 keys is the sum over the two tiles of 1024.
-/
import proofs.«402078_j38448547233995_3_alg».proof.Proof.Spec

noncomputable section

namespace Cert.Attn

open Idealize.ShloMosaic

/-! ## Coercion of finite sums and maxima of reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is the coercion of their maximum. -/
theorem coe_max (a b : ℝ) : max (a : EReal) (b : EReal) = ((max a b : ℝ) : EReal) :=
  (EReal.coe_strictMono.monotone.map_max).symm

/-- Folding max from -∞ over a nonempty finite family of reals lands on a real. -/
theorem fold_max_coe {ι : Type*} (f : ι → ℝ) {s : Finset ι} (hs : s.Nonempty) :
    ∃ m : ℝ, s.fold max ⊥ (fun j => (f j : EReal)) = (m : EReal) := by
  induction hs using Finset.Nonempty.cons_induction with
  | singleton a => exact ⟨f a, by simp⟩
  | cons a s ha hs ih =>
    obtain ⟨m, hm⟩ := ih
    exact ⟨max (f a) m, by rw [Finset.fold_cons, hm, coe_max]⟩

/-- The maximum of a nonempty finite family of reals is a real. -/
theorem fmax_coe {n : Nat} (hn : 0 < n) (f : Fin n → ℝ) :
    ∃ m : ℝ, fmax (fun j => (f j : EReal)) = (m : EReal) :=
  fold_max_coe f ⟨⟨0, hn⟩, Finset.mem_univ _⟩

/-! ## The 2048 keys are the two tiles of 1024 -/

/-- A sum over the 2048 rows is the sum over the first tile plus the sum over the second. -/
theorem sum_row (f : Fin 2048 → ℝ) :
    ∑ j, f j = ∑ j : Fin 1024, f (row 0 j) + ∑ j : Fin 1024, f (row 1 j) := by
  have h := Fin.sum_univ_add (a := 1024) (b := 1024) f
  rw [h]
  congr 1 <;> refine Finset.sum_congr rfl fun j _ => congrArg f (Fin.ext ?_) <;> simp [row]

/-! ## Softmax over the reals -/

/-- Softmax weights do not depend on the real subtracted before exponentiating. -/
theorem softmax_shift {ι : Type*} [Fintype ι] (S W : ι → ℝ) (m M : ℝ) :
    ∑ j, Real.exp (S j - M) * (1 / ∑ k, Real.exp (S k - M)) * W j
      = (∑ j, Real.exp (S j - m) * W j) * (1 / ∑ k, Real.exp (S k - m)) := by
  have h : ∀ j, Real.exp (S j - M) = Real.exp (m - M) * Real.exp (S j - m) := fun j => by
    rw [← Real.exp_add]; congr 1; ring
  have hc : Real.exp (m - M) ≠ 0 := (Real.exp_pos _).ne'
  simp_rw [h]
  rw [← Finset.mul_sum, Finset.sum_mul]
  refine Finset.sum_congr rfl fun j _ => ?_
  rw [one_div, one_div, mul_inv]
  field_simp

/-- The two-tile recurrence against the running maxima m0 and m1 is the softmax against any real M. -/
theorem two_tile_real (S W : Fin 2048 → ℝ) (m0 m1 M : ℝ) :
    (Real.exp (m0 - m1) * (∑ j : Fin 1024, Real.exp (S (row 0 j) - m0) * W (row 0 j))
        + ∑ j : Fin 1024, Real.exp (S (row 1 j) - m1) * W (row 1 j))
      * (1 / (Real.exp (m0 - m1) * (∑ j : Fin 1024, Real.exp (S (row 0 j) - m0))
        + ∑ j : Fin 1024, Real.exp (S (row 1 j) - m1)))
      = ∑ j, Real.exp (S j - M) * (1 / ∑ k, Real.exp (S k - M)) * W j := by
  have e0 : ∀ j : Fin 1024, Real.exp (m0 - m1) * Real.exp (S (row 0 j) - m0) = Real.exp (S (row 0 j) - m1) :=
    fun j => by rw [← Real.exp_add]; congr 1; ring
  rw [Finset.mul_sum, Finset.mul_sum]
  simp_rw [← mul_assoc, e0]
  rw [← sum_row (fun j => Real.exp (S j - m1) * W j), ← sum_row (fun j => Real.exp (S j - m1))]
  exact (softmax_shift S W m1 M).symm

/-! ## Every intermediate value is a real -/

/-- A linear layer of real arrays is real. -/
theorem proj_coe {x : T3} {w : T2} {b : T1} (hx : ∀ p n d, ∃ r : ℝ, x p n d = (r : EReal))
    (hw : ∀ d e, ∃ r : ℝ, w d e = (r : EReal)) (hb : ∀ e, ∃ r : ℝ, b e = (r : EReal)) :
    ∃ P : Fin 4 → Fin 2048 → Fin 1024 → ℝ, ∀ p n e, proj x w b p n e = (P p n e : EReal) := by
  choose xr hxr using hx
  choose wr hwr using hw
  choose br hbr using hb
  refine ⟨fun p n e => (∑ d, xr p n d * wr d e) + br e, fun p n e => ?_⟩
  simp only [proj, hxr, hwr, hbr, EReal.coe_add, coe_sum, EReal.coe_mul]

/-- The real score: the contraction of a query row with a key row, scaled by 1/32. -/
def sc (Q K : Fin 4 → Fin 2048 → Fin 1024 → ℝ) (p : Fin 4) (n j : Fin 2048) : ℝ :=
  (∑ e, Q p n e * K p j e) * (1 / 32)

section
variable {x : T3} {wq wk wv : T2} {bq bk bv : T1} {Q K V : Fin 4 → Fin 2048 → Fin 1024 → ℝ}

/-- The reference's score is the real score. -/
theorem rScore_coe (hQ : ∀ p n e, proj x wq bq p n e = (Q p n e : EReal))
    (hK : ∀ p n e, proj x wk bk p n e = (K p n e : EReal)) (p : Fin 4) (n j : Fin 2048) :
    rScore x wq wk bq bk p n j = (sc Q K p n j : EReal) := by
  simp only [rScore, hQ, hK, s32, sc, EReal.coe_mul, coe_sum]

/-- The kernel's score, with the scale folded into q, is the same real score. -/
theorem kScore_coe (hQ : ∀ p n e, proj x wq bq p n e = (Q p n e : EReal))
    (hK : ∀ p n e, proj x wk bk p n e = (K p n e : EReal)) (p : Fin 4) (t kv : Fin 2) (i j : Fin 1024) :
    kScore x wq wk bq bk p t kv i j = (sc Q K p (row t i) (row kv j) : EReal) := by
  simp only [kScore, kq, hQ, hK, s32, ← EReal.coe_mul, ← coe_sum]
  congr 1
  rw [sc, Finset.sum_mul]
  exact Finset.sum_congr rfl fun e _ => by ring

end

/-- With real inputs the kernel's two-tile quotient is the reference's softmax-weighted sum of v. -/
theorem kOut_eq_rOut (x : T3) (wq wk wv : T2) (bq bk bv : T1)
    (hx : ∀ p n d, ∃ r : ℝ, x p n d = (r : EReal))
    (hwq : ∀ d e, ∃ r : ℝ, wq d e = (r : EReal)) (hwk : ∀ d e, ∃ r : ℝ, wk d e = (r : EReal)) (hwv : ∀ d e, ∃ r : ℝ, wv d e = (r : EReal))
    (hbq : ∀ e, ∃ r : ℝ, bq e = (r : EReal)) (hbk : ∀ e, ∃ r : ℝ, bk e = (r : EReal)) (hbv : ∀ e, ∃ r : ℝ, bv e = (r : EReal))
    (p : Fin 4) (t : Fin 2) (i e : Fin 1024) :
    kOut x wq wk wv bq bk bv p t i e = rOut x wq wk wv bq bk bv p (row t i) e := by
  obtain ⟨Q, hQ⟩ := proj_coe hx hwq hbq
  obtain ⟨K, hK⟩ := proj_coe hx hwk hbk
  obtain ⟨V, hV⟩ := proj_coe hx hwv hbv
  -- the scores of this query row and the column of v, as reals
  have hk : ∀ kv j, kScore x wq wk bq bk p t kv i j = (sc Q K p (row t i) (row kv j) : EReal) :=
    fun kv j => kScore_coe hQ hK p t kv i j
  have hr : ∀ j, rScore x wq wk bq bk p (row t i) j = (sc Q K p (row t i) j : EReal) :=
    fun j => rScore_coe hQ hK p (row t i) j
  -- the three maxima are reals
  obtain ⟨m0, hm0⟩ : ∃ m : ℝ, kM0 x wq wk bq bk p t i = (m : EReal) := by
    simp only [kM0, hk]; exact fmax_coe (by norm_num) _
  obtain ⟨m', hm'⟩ : ∃ m : ℝ, (fmax fun j => kScore x wq wk bq bk p t 1 i j) = (m : EReal) := by
    simp only [hk]; exact fmax_coe (by norm_num) _
  obtain ⟨M, hM⟩ : ∃ m : ℝ, rMax x wq wk bq bk p (row t i) = (m : EReal) := by
    simp only [rMax, hr]; exact fmax_coe (by norm_num) _
  have hm1 : kM1 x wq wk bq bk p t i = ((max m0 m' : ℝ) : EReal) := by rw [kM1, hm0, hm', coe_max]
  -- the kernel's quantities
  have hA : kA1 x wq wk bq bk p t i = (Real.exp (m0 - max m0 m') : EReal) := by
    rw [kA1, hm0, hm1, ← EReal.coe_sub, Ideal.exp_coe]
  have hL0 : kL0 x wq wk bq bk p t i = ((∑ j : Fin 1024, Real.exp (sc Q K p (row t i) (row 0 j) - m0) : ℝ) : EReal) := by
    simp only [kL0, hk, hm0, ← EReal.coe_sub, Ideal.exp_coe, ← coe_sum]
  have hAcc0 : kAcc0 x wq wk wv bq bk bv p t i e
      = ((∑ j : Fin 1024, Real.exp (sc Q K p (row t i) (row 0 j) - m0) * V p (row 0 j) e : ℝ) : EReal) := by
    simp only [kAcc0, hk, hm0, hV, ← EReal.coe_sub, Ideal.exp_coe, ← EReal.coe_mul, ← coe_sum]
  have hL1 : kL1 x wq wk bq bk p t i
      = ((Real.exp (m0 - max m0 m') * (∑ j : Fin 1024, Real.exp (sc Q K p (row t i) (row 0 j) - m0))
          + ∑ j : Fin 1024, Real.exp (sc Q K p (row t i) (row 1 j) - max m0 m') : ℝ) : EReal) := by
    simp only [kL1, hA, hL0, hk, hm1, ← EReal.coe_sub, Ideal.exp_coe, ← EReal.coe_mul, ← coe_sum, ← EReal.coe_add]
  have hAcc1 : kAcc1 x wq wk wv bq bk bv p t i e
      = ((Real.exp (m0 - max m0 m') * (∑ j : Fin 1024, Real.exp (sc Q K p (row t i) (row 0 j) - m0) * V p (row 0 j) e)
          + ∑ j : Fin 1024, Real.exp (sc Q K p (row t i) (row 1 j) - max m0 m') * V p (row 1 j) e : ℝ) : EReal) := by
    simp only [kAcc1, hA, hAcc0, hk, hm1, hV, ← EReal.coe_sub, Ideal.exp_coe, ← EReal.coe_mul, ← coe_sum,
      ← EReal.coe_add]
  have hL1pos : (0 : ℝ) < Real.exp (m0 - max m0 m') * (∑ j : Fin 1024, Real.exp (sc Q K p (row t i) (row 0 j) - m0))
      + ∑ j : Fin 1024, Real.exp (sc Q K p (row t i) (row 1 j) - max m0 m') :=
    add_pos (mul_pos (Real.exp_pos _) (Finset.sum_pos (fun j _ => Real.exp_pos _) ⟨0, Finset.mem_univ _⟩))
      (Finset.sum_pos (fun j _ => Real.exp_pos _) ⟨0, Finset.mem_univ _⟩)
  -- the reference's quantities
  have hE : ∀ j, rExp x wq wk bq bk p (row t i) j = (Real.exp (sc Q K p (row t i) j - M) : EReal) := fun j => by
    rw [rExp, hr, hM, ← EReal.coe_sub, Ideal.exp_coe]
  have hS : rSum x wq wk bq bk p (row t i) = ((∑ j, Real.exp (sc Q K p (row t i) j - M) : ℝ) : EReal) := by
    simp only [rSum, hE, ← coe_sum]
  have hSpos : (0 : ℝ) < ∑ j : Fin 2048, Real.exp (sc Q K p (row t i) j - M) :=
    Finset.sum_pos (fun j _ => Real.exp_pos _) ⟨0, Finset.mem_univ _⟩
  -- both sides as coerced reals
  rw [kOut, hAcc1, hL1, Ideal.div_coe hL1pos.ne', ← EReal.coe_mul]
  simp only [rOut, hE, hS, hV, Ideal.div_coe hSpos.ne', ← EReal.coe_mul, ← coe_sum]
  congr 1
  exact two_tile_real (fun j => sc Q K p (row t i) j) (fun j => V p j e) m0 (max m0 m') M

end Cert.Attn

end
-- ==== Proof.Finite.lean ====
/-
  The precondition says every entry of every argument array is finite: each is a real number.
-/
import proofs.«402078_j38448547233995_3_alg».proof.Pre_finite_inputs
import proofs.«402078_j38448547233995_3_alg».proof.Proof.Spec
import Idealize.ShloMosaic.Lib.ReduceAll
import Idealize.ShloMosaic.PureOps.Ideal.Laws

noncomputable section

namespace Cert.Pre_finite_inputs.Real

open Idealize.ShloMosaic Cert.Pre_finite_inputs Cert.Attn

/-- The rank-0 shape has one index. -/
instance : Subsingleton S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value max x (-x) is below +∞ is a real: -∞ and +∞ both have absolute value +∞. -/
theorem real_of_abs_lt_top (x : EReal) (h : max x (-x) < ⊤) : ∃ r : ℝ, x = (r : EReal) := by
  induction x using EReal.rec with
  | bot => simp at h
  | coe r => exact ⟨r, rfl⟩
  | top => simp at h

/-- One array of any shape: if the conjunction over all entries of |a i| < +∞ is 1, every entry is a real. -/
theorem real_of_all {S : Shape} {axes : List (Fin S.rank)} (a : FVec Ideal S .f32)
    (hb : S_.BroadcastsInDim S (![] : Fin 0 → Fin S.rank)) (hr : S.ReducesTo axes S_) (h0 : 0 < S_.numel)
    (e : Host.reduce IntOp.andi (cmpf .olt (Host.absf a) (broadcastInDim S ![] hb (constant S_ .f32 0x7F800000#32)))
      (constantI S_ 1 1#1) hr h0 ValueIdx.ix0 = 1#1)
    (i : S.Idx) : ∃ r : ℝ, a i = (r : EReal) := by
  -- the conjunction is 1, so its term at i is 1; that term is the comparison max (a i) (-(a i)) < +∞
  have hi := Host.reduce_andi_all _ _ hr h0 ValueIdx.ix0 e i
  have hi' : Ideal.cmp .olt (max (a i) (-(a i))) (Ideal.ofBits .f32 0x7F800000#32) = 1#1 := hi
  rw [inf_bits] at hi'
  refine real_of_abs_lt_top (a i) ?_
  by_contra hlt
  have hc : Ideal.cmp .olt (max (a i) (-(a i))) ⊤ = BitVec.ofBool (decide (max (a i) (-(a i)) < ⊤)) := rfl
  rw [hc, decide_eq_false hlt] at hi'
  exact absurd hi' (by decide)

/-- A conjunction of two rank-0 bits that is 1 has both bits 1. -/
theorem andi_ix0 (x y : IVec S_ 1) (h : andi x y ValueIdx.ix0 = 1#1) :
    x ValueIdx.ix0 = 1#1 ∧ y ValueIdx.ix0 = 1#1 := IntOp.andi_eq_one.1 h

/-- If the finiteness predicate of the seven argument arrays is all ones, every entry of each is a real. -/
theorem reals_of_pre [Cert.Pre_finite_inputs.Facts]
    (a0 : FVec Ideal S4x2048x1024 .f32) (a1 a2 a3 : FVec Ideal S1024x1024 .f32) (a4 a5 a6 : FVec Ideal S1024 .f32)
    (h : Cert.Pre_finite_inputs.fn (F := Ideal) a0 a1 a2 a3 a4 a5 a6 = fun _ => 1#1) :
    (∀ p n d, ∃ r : ℝ, c3 a0 p n d = (r : EReal))
    ∧ (∀ d e, ∃ r : ℝ, c2 a1 d e = (r : EReal)) ∧ (∀ d e, ∃ r : ℝ, c2 a2 d e = (r : EReal)) ∧ (∀ d e, ∃ r : ℝ, c2 a3 d e = (r : EReal))
    ∧ (∀ e, ∃ r : ℝ, c1 a4 e = (r : EReal)) ∧ (∀ e, ∃ r : ℝ, c1 a5 e = (r : EReal)) ∧ (∀ e, ∃ r : ℝ, c1 a6 e = (r : EReal)) := by
  -- the predicate is the left-nested conjunction of the seven arrays' conjunctions, the last array outermost
  have h1 := congrFun h ValueIdx.ix0
  unfold fn fn_part1 at h1
  dsimp only at h1
  obtain ⟨h1, e6⟩ := andi_ix0 _ _ h1
  obtain ⟨h1, e5⟩ := andi_ix0 _ _ h1
  obtain ⟨h1, e4⟩ := andi_ix0 _ _ h1
  obtain ⟨h1, e3⟩ := andi_ix0 _ _ h1
  obtain ⟨h1, e2⟩ := andi_ix0 _ _ h1
  obtain ⟨e0, e1⟩ := andi_ix0 _ _ h1
  exact ⟨fun p n d => real_of_all a0 _ _ _ e0 _, fun d e => real_of_all a1 _ _ _ e1 _, fun d e => real_of_all a2 _ _ _ e2 _,
    fun d e => real_of_all a3 _ _ _ e3 _, fun e => real_of_all a4 _ _ _ e4 _, fun e => real_of_all a5 _ _ _ e5 _,
    fun e => real_of_all a6 _ _ _ e6 _⟩

end Cert.Pre_finite_inputs.Real

end
-- ==== Proof.lean ====
/-
  The certificate of the attention kernel against its jnp reference.

  Both programs compute softmax(q·kᵀ/32)·v with q, k, v three linear layers of x. The kernel does it in two kernel
  regions: a projection region that writes q·(1/32), k and v, and an attention region that walks the keys in two tiles
  with a running maximum, sum and numerator kept in scratch between grid points. The frames are each program's run
  read at its argument arrays. For the equivalence, the kernel's result at an index is the two-tile running softmax of
  the arguments (`result_eq_kOut`), the reference's is the plain softmax-weighted sum (`val_out_apply`), and the two
  agree wherever every input is a real number (`kOut_eq_rOut`: the scale moves across the contraction, the first
  tile's terms are carried to the final maximum by exp (m0 - m1), and the division by the row's sum moves across the
  sum over keys), which the precondition provides (`reals_of_pre`).
-/
import proofs.«402078_j38448547233995_3_alg».proof.Defs
import proofs.«402078_j38448547233995_3_alg».proof.Proof.Gen.Kernel
import proofs.«402078_j38448547233995_3_alg».proof.Proof.Gen.KernelIdeal
import proofs.«402078_j38448547233995_3_alg».proof.Proof.Gen.ReferenceIdeal
import proofs.«402078_j38448547233995_3_alg».proof.Proof.Gen.Pre_finite_inputs
import proofs.«402078_j38448547233995_3_alg».proof.Proof.Bits.Run
import proofs.«402078_j38448547233995_3_alg».proof.Proof.Run
import proofs.«402078_j38448547233995_3_alg».proof.Proof.KValue
import proofs.«402078_j38448547233995_3_alg».proof.Proof.RefValue
import proofs.«402078_j38448547233995_3_alg».proof.Proof.Softmax
import proofs.«402078_j38448547233995_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Every row of the 2048 is a row of one of the two tiles. -/
theorem row_surj (n : Fin 2048) : ∃ (t : Fin 2) (i : Fin 1024), n = Cert.Attn.row t i :=
  ⟨⟨n.val / 1024, by have := n.isLt; omega⟩, ⟨n.val % 1024, Nat.mod_lt _ (by decide)⟩,
    Fin.ext (by simp only [Cert.Attn.row]; omega)⟩

theorem algebraic : Cert.algebraic_KernelIdeal_ReferenceIdeal := by
  intro m ρ m' ρ' hpre hagree
  refine ⟨fun c => (Cert.KernelIdeal.Fr.dat1 (F := Ideal) (Cert.KernelIdeal.Fr.V3 m) c).arrAt 3 Cert.KernelIdeal.cfg1.N,
    Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1, (hagree c).2.2.2.2.1, (hagree c).2.2.2.2.2.1, (hagree c).2.2.2.2.2.2]
  funext idx
  obtain ⟨p, n, e, rfl⟩ : ∃ (p : Fin 4) (n : Fin 2048) (e : Fin 1024), idx = ValueIdx.ix3 p n e :=
    ⟨idx 0, idx 1, idx 2, ValueIdx.eq_ix3 idx⟩
  obtain ⟨t, i, rfl⟩ := row_surj n
  obtain ⟨h0, h1, h2, h3, h4, h5, h6⟩ := Cert.Pre_finite_inputs.Real.reals_of_pre _ _ _ _ _ _ _ (hpre c)
  rw [Cert.ReferenceIdeal.RefValue.val_out_apply]
  exact ((Cert.Attn.kOut_eq_rOut _ _ _ _ _ _ _ h0 h1 h2 h3 h4 h5 h6 p t i e).symm).trans
    (Cert.KernelIdeal.FrValue.result_eq_kOut m c p t i e).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
